-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x64 : Shape := ⟨2, ![2048, 64]⟩
abbrev S64 : Shape := ⟨1, ![64]⟩
abbrev S64x64 : Shape := ⟨2, ![64, 64]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x64 : S_.BroadcastsInDim S2048x64 (![] : Fin 0 → Fin S2048x64.rank)
  reducesTo_S2048x64_S_d0_1 : S2048x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S8192x2048 .f32) (main_arg1 : FVec F S2048x64 .f32) (main_arg2 : FVec F S64 .f32) (main_arg3 : FVec F S64x64 .f32) (main_arg4 : FVec F S64 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S8192x2048 : Shape := ⟨2, ![8192, 2048]⟩
abbrev S2048x64 : Shape := ⟨2, ![2048, 64]⟩
abbrev S64 : Shape := ⟨1, ![64]⟩
abbrev S64x64 : Shape := ⟨2, ![64, 64]⟩
abbrev S1x64 : Shape := ⟨2, ![1, 64]⟩
abbrev S8192x64 : Shape := ⟨2, ![8192, 64]⟩
abbrev S1024x1024 : Shape := ⟨2, ![1024, 1024]⟩
abbrev S1024x64 : Shape := ⟨2, ![1024, 64]⟩
abbrev S1024 : Shape := ⟨1, ![1024]⟩
abbrev S1024x1 : Shape := ⟨2, ![1024, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S1x64, .f32⟩
  | .hbm, ⟨6, _⟩ => ⟨S1x64, .f32⟩
  | .hbm, ⟨7, _⟩ => ⟨S8192x64, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x64, .f32⟩
  | .local _ .vmem, ⟨5, _⟩ => ⟨S1024x64, .f32⟩
  | .local _ .vmem, ⟨6, _⟩ => ⟨S1x64, .f32⟩
  | .local _ .vmem, ⟨7, _⟩ => ⟨S64x64, .f32⟩
  | .local _ .vmem, ⟨8, _⟩ => ⟨S1x64, .f32⟩
  | .local _ .vmem, ⟨9, _⟩ => ⟨S1024x64, .f32⟩
  | .local _ .vmem, ⟨10, _⟩ => ⟨S1024x64, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S64_S1x64 : S64.ShapeCasts S1x64
  inb_S1024x1024_S1024x1024_0_0 : ∀ a, (![0, 0] : Fin 2 → Nat) a + S1024x1024.size a ≤ S1024x1024.size a
  h_S1024x1024 : 0 < S1024x1024.numel
  inb_S1024x64_S1024x64_0_0 : ∀ a, (![0, 0] : Fin 2 → Nat) a + S1024x64.size a ≤ S1024x64.size a
  h_S1024x64 : 0 < S1024x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S64x64_S64x64_0_0 : ∀ a, (![0, 0] : Fin 2 → Nat) a + S64x64.size a ≤ S64x64.size a
  h_S64x64 : 0 < S64x64.numel
  reduces_S1024x64_S1024 : S1024x64.Reduces [1] S1024
  shapeCasts_S1024_S1024x1 : S1024.ShapeCasts S1024x1
  broadcasts_S1024x1_S1024x64 : S1024x1.Broadcasts S1024x64
  dot_S1024x1024_S1024x64_S1024x64_1_0_0_1_n_n_wf : DotDims.WF S1024x1024 S1024x64 S1024x64 [1] [0] [0] [1] [] []
  dot_S1024x64_S64x64_S1024x64_1_0_0_1_n_n_wf : DotDims.WF S1024x64 S64x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x2048.size a
  hwx0_0 : ∀ i : grid0.Coords, EltTy.bits .f32 = 32 ∨ (Rect.block (s := S8192x2048) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x2048.size a
  hwx0_1 : ∀ i : grid0.Coords, EltTy.bits .f32 = 32 ∨ (Rect.block (s := S8192x2048) S1024x1024.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S2048x64.size a
  hwx0_2 : ∀ i : grid0.Coords, EltTy.bits .f32 = 32 ∨ (Rect.block (s := S2048x64) S1024x64.size (cc0_transform_2 i) (hinb0_2 i)).WholeWords (EltTy.packing .f32)
  hstage0_3 : ∀ j, (stage0_3 j).IsWhole
  nbuf0_3 : grid0.bufCount reads0_3 false = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S2048x64.size a
  hwx0_3 : ∀ i : grid0.Coords, EltTy.bits .f32 = 32 ∨ (Rect.block (s := S2048x64) S1024x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x64.size a ≤ S8192x64.size a
  hwx0_7 : ∀ i : grid0.Coords, EltTy.bits .f32 = 32 ∨ (Rect.block (s := S8192x64) S1024x64.size (cc0_transform_7 i) (hinb0_7 i)).WholeWords (EltTy.packing .f32)

variable [Facts₀]

def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x64.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1024x64.size cc0_transform_3 reads0_3 false false 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1024x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x64 : Shape := ⟨2, ![2048, 64]⟩
abbrev S64 : Shape := ⟨1, ![64]⟩
abbrev S64x64 : Shape := ⟨2, ![64, 64]⟩
abbrev S8192x64 : Shape := ⟨2, ![8192, 64]⟩
abbrev S1x64 : Shape := ⟨2, ![1, 64]⟩
abbrev S_ : Shape := ⟨0, ![]⟩
abbrev S8192 : Shape := ⟨1, ![8192]⟩
abbrev S8192x1 : Shape := ⟨2, ![8192, 1]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S8192x64, .f32⟩
  | .hbm, ⟨6, _⟩ => ⟨S1x64, .f32⟩
  | .hbm, ⟨7, _⟩ => ⟨S8192x64, .f32⟩
  | .hbm, ⟨8, _⟩ => ⟨S8192x64, .f32⟩
  | .hbm, ⟨9, _⟩ => ⟨S_, .f32⟩
  | .hbm, ⟨10, _⟩ => ⟨S8192x64, .f32⟩
  | .hbm, ⟨11, _⟩ => ⟨S8192x64, .f32⟩
  | .hbm, ⟨12, _⟩ => ⟨S8192x64, .f32⟩
  | .hbm, ⟨13, _⟩ => ⟨S1x64, .f32⟩
  | .hbm, ⟨14, _⟩ => ⟨S8192x64, .f32⟩
  | .hbm, ⟨15, _⟩ => ⟨S8192x64, .f32⟩
  | .hbm, ⟨16, _⟩ => ⟨S_, .f32⟩
  | .hbm, ⟨17, _⟩ => ⟨S8192x64, .f32⟩
  | .hbm, ⟨18, _⟩ => ⟨S8192x64, .f32⟩
  | .hbm, ⟨19, _⟩ => ⟨S_, .f32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S8192x1, .f32⟩
  | .hbm, ⟨25, _⟩ => ⟨S8192x64, .f32⟩
  | .hbm, ⟨26, _⟩ => ⟨S8192x64, .f32⟩
  | .hbm, ⟨27, _⟩ => ⟨S8192x64, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S8192x64, .f32⟩
  | .hbm, ⟨32, _⟩ => ⟨S8192x64, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  reducesTo_S8192x64_S8192_d1 : S8192x64.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  dot_S8192x2048_S2048x64_S8192x64_1_0_0_1_n_n_wf : DotDims.WF S8192x2048 S2048x64 S8192x64 [1] [0] [0] [1] [] []
  dot_S8192x64_S64x64_S8192x64_1_0_0_1_n_n_wf : DotDims.WF S8192x64 S64x64 S8192x64 [1] [0] [0] [1] [] []

variable [Facts₀]

def dot_S8192x2048_S2048x64_S8192x64_1_0_0_1_n_n : DotDims S8192x2048 S2048x64 S8192x64 where
  lhsContracting := [1]
  rhsContracting := [0]
  lhsNonContracting := [0]
  rhsNonContracting := [1]
  lhsBatch := []
  rhsBatch := []
  wf := dot_S8192x2048_S2048x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

class Facts : Prop extends Facts₀ where

variable [Facts]
-- ==== Proof.BData.lean ====
/-
  The proof data of the routed-softmax kernel's one pipelined call, at any float instance.

  The call has eight windows. Windows 0 and 1 are the left and the right column half of the activations
  (both read the one array x), windows 2 and 3 the upper and the lower row half of the first weight matrix
  (both read the one array W1), window 4 the first bias as a row, window 5 the second weight matrix,
  window 6 the second bias as a row, and window 7 the result, one block of 1024 rows per grid point.
  At a grid point the body reads the seven input blocks and stores ONE value over the whole result block,
  so after the body the result's staging buffer holds that value and every input buffer still holds its block.
  Two windows on one array each hold one half of the array's share.
-/
import proofs.«149150_g25202868093193_cont_8to1_1016_10_alg».proof.Proof.Gen.Kernel.Launch
import proofs.«149150_g25202868093193_cont_8to1_1016_10_alg».proof.Proof.Gen.Kernel.Skeleton
import proofs.«149150_g25202868093193_cont_8to1_1016_10_alg».proof.Proof.Gen.Kernel.Points
import Idealize.ShloMosaic.Lib.Pipeline.FrameBody

set_option maxRecDepth 16384

noncomputable section

namespace Cert.Kernel.Run

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- What core `c`'s buffers hold when the call is entered: the launch contents after the two reshapes of the biases. -/
abbrev V (c : Dev nD) (b : Ref sig .tc) : Buf (Elt F) ((c : Thread nD τ).loc b) :=
  StableHlo.after hostOps0 (fun b => m (c, b)) b

/-- Window `w`'s block at grid point `t`, read off its array as the call finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The whole of a 1024 × 1024 block, of a 1024 × 64 block, of a 1 × 64 row and of a 64 × 64 matrix. -/
abbrev rX : Rect S1024x1024 := Rect.unit (s := S1024x1024) ![0, 0] S1024x1024.size inb_S1024x1024_S1024x1024_0_0
abbrev rW : Rect S1024x64 := Rect.unit (s := S1024x64) ![0, 0] S1024x64.size inb_S1024x64_S1024x64_0_0
abbrev rB : Rect S1x64 := Rect.unit (s := S1x64) ![0, 0] S1x64.size inb_S1x64_S1x64_0_0
abbrev rM : Rect S64x64 := Rect.unit (s := S64x64) ![0, 0] S64x64.size inb_S64x64_S64x64_0_0

/-- What the body leaves in the result's staging buffer, from the seven input blocks: its one store, over the whole block. -/
def out7 (x0 x1 : Vec F S1024x1024 .f32) (x2 x3 : Vec F S1024x64 .f32) (x4 : Vec F S1x64 .f32)
    (x5 : Vec F S64x64 .f32) (x6 : Vec F S1x64 .f32) : Vec F S1024x64 .f32 :=
  View.canon [⟨rW, k0_pay1 (View.ld x0 rX) (View.ld x2 rW) (View.ld x1 rX) (View.ld x3 rW) (View.ld x4 rB) (View.ld x5 rM) (View.ld x6 rB)⟩]

/-- The proof data of the call on core `c`: the arrays as the call finds them; after the body each input buffer at its
    block and the result's at `out7` of the blocks; nothing kept between points beyond the core's other scoped buffers;
    nothing owed; the two column halves share x's array half and half, the two row halves W1's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t) (iblk m c 4 t) (iblk m c 5 t) (iblk m c 6 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t
    = out7 (iblk m c 0 t) (iblk m c 1 t) (iblk m c 2 t) (iblk m c 3 t) (iblk m c 4 t) (iblk m c 5 t) (iblk m c 6 t) := by
  dsimp only [dats]

end Cert.Kernel.Run

end
-- ==== Proof.BBody.lean ====
/-
  The body of the call at a grid point: handed the seven input buffers at their blocks and the result's buffer at
  anything, it ends with the inputs as they were and the result's buffer at the one value it stores.
-/
import proofs.«149150_g25202868093193_cont_8to1_1016_10_alg».proof.Proof.BData
import Idealize.ShloMosaic.Lib.Pipeline.FrameBody
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## What the body finds in the input buffers -/

/-- At every grid point the current staging buffer of window 0 (the left column half of the activations) holds that window's block of
    its array, whether the block was moved in at this point or at an earlier one: the body leaves the block in place,
    and a point that moves nothing in has the same block index as the point before it. -/
theorem before_in0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)

/-- At every grid point the current staging buffer of window 1 (the right column half of the activations) holds that window's block of
    its array, whether the block was moved in at this point or at an earlier one: the body leaves the block in place,
    and a point that moves nothing in has the same block index as the point before it. -/
theorem before_in1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)

/-- At every grid point the current staging buffer of window 2 (the upper row half of the first weight matrix) holds that window's block of
    its array, whether the block was moved in at this point or at an earlier one: the body leaves the block in place,
    and a point that moves nothing in has the same block index as the point before it. -/
theorem before_in2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)

/-- At every grid point the current staging buffer of window 3 (the lower row half of the first weight matrix) holds that window's block of
    its array, whether the block was moved in at this point or at an earlier one: the body leaves the block in place,
    and a point that moves nothing in has the same block index as the point before it. -/
theorem before_in3 (c : Dev nD) (t : Fin cfg0.N) (d) : (dats m 0 c).before 3 t d = iblk m c 3 t :=
  ((dats m 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)

/-- At every grid point the current staging buffer of window 4 (the first bias as a row) holds that window's block of
    its array, whether the block was moved in at this point or at an earlier one: the body leaves the block in place,
    and a point that moves nothing in has the same block index as the point before it. -/
theorem before_in4 (c : Dev nD) (t : Fin cfg0.N) (d) : (dats m 0 c).before 4 t d = iblk m c 4 t :=
  ((dats m 0 c).before_in_eq_fetched 4 rfl (fun _ => rfl) (fun _ _ _ => rfl)
      (fun t => by rw [after4]; unfold Dat.blockOf iblk; rw [A_eq]; try rfl) t d).trans
    (by unfold Dat.fetched Dat.blockOf iblk; rw [A_eq]; try rfl)

/-- At every grid point the current staging buffer of window 5 (the second weight matrix) holds that window's block of
    its array, whether the block was moved in at this point or at an earlier one: the body leaves the block in place,
    and a point that moves nothing in has the same block index as the point before it. -/
theorem before_in5 (c : Dev nD) (t : Fin cfg0.N) (d) : (dats m 0 c).before 5 t d = iblk m c 5 t :=
  ((dats m 0 c).before_in_eq_fetched 5 rfl (fun _ => rfl) (fun _ _ _ => rfl)
      (fun t => by rw [after5]; unfold Dat.blockOf iblk; rw [A_eq]; try rfl) t d).trans
    (by unfold Dat.fetched Dat.blockOf iblk; rw [A_eq]; try rfl)

/-- At every grid point the current staging buffer of window 6 (the second bias as a row) holds that window's block of
    its array, whether the block was moved in at this point or at an earlier one: the body leaves the block in place,
    and a point that moves nothing in has the same block index as the point before it. -/
theorem before_in6 (c : Dev nD) (t : Fin cfg0.N) (d) : (dats m 0 c).before 6 t d = iblk m c 6 t :=
  ((dats m 0 c).before_in_eq_fetched 6 rfl (fun _ => rfl) (fun _ _ _ => rfl)
      (fun t => by rw [after6]; unfold Dat.blockOf iblk; rw [A_eq]; try rfl) t d).trans
    (by unfold Dat.fetched Dat.blockOf iblk; rw [A_eq]; try rfl)

/-! ## The result block is covered by its one store -/

/-- The body's one store writes the whole 1024 × 64 result block, so every index of the block lies in it. -/
theorem cover_out (p0 : Vec F S1024x64 .f32) (y : S1024x64.Idx) :
    ∃ pc ∈ ([⟨rW, p0⟩] : List (View.Piece (Elt F) S1024x64 .f32)), y ∈ pc.1.set :=
  View.cover_of_tiled [⟨rW, p0⟩] S1024x64.size (by rfl) y

/-! ## The kernel function's triple -/

set_option maxHeartbeats 1000000 in
/-- The kernel function on eight whole staging memrefs, the seven inputs' reading `x0` … `x6` (in window order) and
    the result's reading anything, runs to a continuation that holds the seven inputs' as they were and the result's
    at `out7` of the inputs: it reads each input whole, reads the result's buffer (a value it never uses) and stores
    one value over the whole of the result's buffer. -/
theorem sound_kernel (c : Dev nD) (E : Set ℕ) (i : grid0.Coords)
    (arg1 : Memref sig .tc .vmem S1024x1024 .f32) (harg1 : arg1.IsWhole)
    (arg2 : Memref sig .tc .vmem S1024x1024 .f32) (harg2 : arg2.IsWhole)
    (arg3 : Memref sig .tc .vmem S1024x64 .f32) (harg3 : arg3.IsWhole)
    (arg4 : Memref sig .tc .vmem S1024x64 .f32) (harg4 : arg4.IsWhole)
    (arg5 : Memref sig .tc .vmem S1x64 .f32) (harg5 : arg5.IsWhole)
    (arg6 : Memref sig .tc .vmem S64x64 .f32) (harg6 : arg6.IsWhole)
    (arg7 : Memref sig .tc .vmem S1x64 .f32) (harg7 : arg7.IsWhole)
    (arg8 : Memref sig .tc .vmem S1024x64 .f32) (harg8 : arg8.IsWhole)
    (x0 x1 : Vec F S1024x1024 .f32) (x2 x3 : Vec F S1024x64 .f32) (x4 : Vec F S1x64 .f32)
    (x5 : Vec F S64x64 .f32) (x6 : Vec F S1x64 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ (∃ d, owns (c : Thread nD τ) arg8 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
            ∗ owns (c : Thread nD τ) arg8 fullShare (out7 x0 x1 x2 x3 x4 x5 x6)) -∗ K ⟨⟩))
      ⊢ wp frame (wpE (defs₀ (F := F)) Variants.none c none) E
          (cc0__router_block i arg1 harg1 arg2 harg2 arg3 harg3 arg4 harg4 arg5 harg5 arg6 harg6 arg7 harg7 arg8 harg8) K := by
  simp only [cc0__router_block_eq_skeleton]; unfold cc0__router_block_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover_out _)

/-! ## The body obligation at a grid point -/

/-- What the body is handed at point `t`: the invariant, the core's debts, and each window's current staging buffer
    at what the pipeline left in it. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What the body hands back at point `t`: the invariant, the core's debts, and each window's current staging buffer
    at what the proof data says the body leaves there. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any grid point: the seven input buffers hold their blocks, so the kernel function's triple applies at
    the blocks; the invariant and the debts are the same before and after and are passed through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation of the call on core `c`, at every grid point. -/
theorem body_obligation (c : Dev nD) :
    BodyObligation (dats (F := F) m 0 c) (defs₀ (F := F)) Variants.none () Set.univ := fun t => by
  rw [bigSep_W0, bigSep_W0]
  exact sound_body m c t

end Cert.Kernel.Run

end
-- ==== Proof.BLaunch.lean ====
/-
  The run of the whole program, at any float instance: the two reshapes of the biases, then the pipelined call.

  The call's windows 0 and 1 read the one array x and windows 2 and 3 the one array W1, so at entry each of those
  two arrays, held whole, is split into two half shares, one per window; the other four arrays go to their windows
  whole. The two bias vectors themselves are no window's array (their reshapes are): they pass by the call untouched.
  From the body's obligation at every grid point the run terminates without a fault, every windowed array ends at what
  the write-backs leave, and every other unscoped buffer as the call found it. The argument arrays are inputs of the
  call or pass by it, so they end as launched: the frame.
-/
import proofs.«149150_g25202868093193_cont_8to1_1016_10_alg».proof.Proof.BData
import proofs.«149150_g25202868093193_cont_8to1_1016_10_alg».proof.Proof.BBody
import Idealize.ShloMosaic.Lib.Pipeline.FrameBody

set_option maxRecDepth 16384

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the call -/

theorem hostOps0_fresh : (hostOps0 : List (HloOp τ sig (Elt F))).Forall fun op => op.fresh = ∅ := by
  simp only [List.Forall]; repeat' constructor

/-- The two reshapes, then the call: the call is entered with the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither reshape writes an argument array: the call finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))

/-! ## The arrays at the call's entry, window by window -/

/-- The six distinct buffers behind the eight windows' arrays, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0) ∗ (((c : Thread nD τ).loc main_arg3) ↦{fullShare} W main_arg3)
          ∗ (((c : Thread nD τ).loc main_v1) ↦{fullShare} W main_v1) ∗ (((c : Thread nD τ).loc main_v2) ↦{fullShare} W main_v2)) := by
  unfold Pipeline.arrBufs
  exact bigSep_eq_bigSepL_of_eq [main_arg0, main_arg1, main_v0, main_arg3, main_v1, main_v2] (by decide) (by decide) _

/-- The call's arrays at contents `G`, each array a whole buffer: window by window, at its share. -/
theorem arrays_eq (c : Dev nD) (G : (w : Fin cfg0.W) → Buf (Elt F) ((cfg0.win w).arr.view.loc (c : Thread nD τ))) :
    ((dats m 0 c).arrays G : sProp 𝕄)
      = bigSep Finset.univ fun w : Fin 8 => (((c : Thread nD τ).loc (Pipeline.arrRef spec0 w)) ↦{(dats m 0 c).share w} G w : sProp 𝕄) := by
  unfold Dat.arrays
  exact bigSep_congr fun w _ => by rw [(arr_whole0 w).set_eq_univ]

/-- The two windows on x hold the left and the right half of its share, the two on W1 likewise; the rest hold theirs whole. -/
theorem share0 (c : Dev nD) : (dats m 0 c).share 0 = fullShare.left := rfl
theorem share1 (c : Dev nD) : (dats m 0 c).share 1 = fullShare.right := rfl
theorem share2 (c : Dev nD) : (dats m 0 c).share 2 = fullShare.left := rfl
theorem share3 (c : Dev nD) : (dats m 0 c).share 3 = fullShare.right := rfl
theorem share4 (c : Dev nD) : (dats m 0 c).share 4 = fullShare := rfl
theorem share5 (c : Dev nD) : (dats m 0 c).share 5 = fullShare := rfl
theorem share6 (c : Dev nD) : (dats m 0 c).share 6 = fullShare := rfl
theorem share7 (c : Dev nD) : (dats m 0 c).share 7 = fullShare := rfl

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq, bigSep_W0, share0, share1, share2, share3, share4, share5, share6, share7]
  show _ ⊢ iprop((((c : Thread nD τ).loc main_arg0) ↦{fullShare.left} V m c main_arg0)
      ∗ (((c : Thread nD τ).loc main_arg0) ↦{fullShare.right} V m c main_arg0)
      ∗ (((c : Thread nD τ).loc main_arg1) ↦{fullShare.left} V m c main_arg1)
      ∗ (((c : Thread nD τ).loc main_arg1) ↦{fullShare.right} V m c main_arg1)
      ∗ (((c : Thread nD τ).loc main_v0) ↦{fullShare} V m c main_v0)
      ∗ (((c : Thread nD τ).loc main_arg3) ↦{fullShare} V m c main_arg3)
      ∗ (((c : Thread nD τ).loc main_v1) ↦{fullShare} V m c main_v1)
      ∗ (((c : Thread nD τ).loc main_v2) ↦{fullShare} V m c main_v2))
  iintro ⟨H0, H1, Hv0, H3, Hv1, Hv2⟩
  ihave H0' := (pointsTo_share (PosShare.mem_left_op_right fullShare)).1 $$ H0
  icases H0' with ⟨H0l, H0r⟩
  ihave H1' := (pointsTo_share (PosShare.mem_left_op_right fullShare)).1 $$ H1
  icases H1' with ⟨H1l, H1r⟩
  isplitl [H0l]; · iexact H0l
  isplitl [H0r]; · iexact H0r
  isplitl [H1l]; · iexact H1l
  isplitl [H1r]; · iexact H1r
  isplitl [Hv0]; · iexact Hv0
  isplitl [H3]; · iexact H3
  isplitl [Hv1]; · iexact Hv1
  iexact Hv2

/-! ## The run -/

/-- Between points the call keeps nothing but the core's other scoped buffers. -/
theorem Φ_eq (c : Dev nD) (t : Fin (cfg0.N + 1)) :
    (dats m 0 c).Φ t = (Pipeline.scopedRest (Ix := Unit) (Name := ℕ) (U := UR sig nD τ) (Lvl := ℕ) (Val := Elt F) spec0 c : sProp 𝕄) := rfl

set_option backward.isDefEq.respectTransparency.types false in
/-- From any memory with zero counters every weakly fair execution of the program terminates without a fault; every
    windowed array ends at what the write-backs leave, every other unscoped buffer as the call found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [Φ_eq]
      iintro ⟨-, H⟩
      iexact H)
    (hout := fun c => by
      rw [Φ_eq]
      iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The run read at the program's buffers: the result array ends at what the eight write-backs leave, and the five
    argument arrays end as launched (x, W1 and W2 are inputs of the call, the two bias vectors pass by it). -/
theorem run_result : θ_run defs (onTc (τ := τ) (main (F := F))) ⟨m, fun _ => 0, ρ⟩ (fun r => ∀ c : Dev nD,
      r.2.mem ((c.tc : Thread nD τ).loc main_v2) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c).1 7,
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).1 5).trans (((dats m 0 c).arrAt_in 5 rfl _).trans ((A_eq m c 5).trans (V_main_arg3 m c))),
      ((h c).2 main_arg4 (Pipeline.mem_restRefs_of main_arg4 (by decide) (by decide))).trans (V_main_arg4 m c)⟩)
    (run_main m ρ)

/-- The frame: the run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_result m ρ)

end Cert.Kernel.Run

end
-- ==== Proof.KData.lean ====
/-
  The proof data of the routed-softmax kernel's one pipelined call, at any float instance.

  The call has eight windows. Windows 0 and 1 are the left and the right column half of the activations
  (both read the one array x), windows 2 and 3 the upper and the lower row half of the first weight matrix
  (both read the one array W1), window 4 the first bias as a row, window 5 the second weight matrix,
  window 6 the second bias as a row, and window 7 the result, one block of 1024 rows per grid point.
  At a grid point the body reads the seven input blocks and stores ONE value over the whole result block,
  so after the body the result's staging buffer holds that value and every input buffer still holds its block.
  Two windows on one array each hold one half of the array's share.
-/
import proofs.«149150_g25202868093193_cont_8to1_1016_10_alg».proof.Proof.Gen.KernelIdeal.Launch
import proofs.«149150_g25202868093193_cont_8to1_1016_10_alg».proof.Proof.Gen.KernelIdeal.Skeleton
import proofs.«149150_g25202868093193_cont_8to1_1016_10_alg».proof.Proof.Gen.KernelIdeal.Points
import Idealize.ShloMosaic.Lib.Pipeline.FrameBody

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- What core `c`'s buffers hold when the call is entered: the launch contents after the two reshapes of the biases. -/
abbrev V (c : Dev nD) (b : Ref sig .tc) : Buf (Elt F) ((c : Thread nD τ).loc b) :=
  StableHlo.after hostOps0 (fun b => m (c, b)) b

/-- Window `w`'s block at grid point `t`, read off its array as the call finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The whole of a 1024 × 1024 block, of a 1024 × 64 block, of a 1 × 64 row and of a 64 × 64 matrix. -/
abbrev rX : Rect S1024x1024 := Rect.unit (s := S1024x1024) ![0, 0] S1024x1024.size inb_S1024x1024_S1024x1024_0_0
abbrev rW : Rect S1024x64 := Rect.unit (s := S1024x64) ![0, 0] S1024x64.size inb_S1024x64_S1024x64_0_0
abbrev rB : Rect S1x64 := Rect.unit (s := S1x64) ![0, 0] S1x64.size inb_S1x64_S1x64_0_0
abbrev rM : Rect S64x64 := Rect.unit (s := S64x64) ![0, 0] S64x64.size inb_S64x64_S64x64_0_0

/-- What the body leaves in the result's staging buffer, from the seven input blocks: its one store, over the whole block. -/
def out7 (x0 x1 : Vec F S1024x1024 .f32) (x2 x3 : Vec F S1024x64 .f32) (x4 : Vec F S1x64 .f32)
    (x5 : Vec F S64x64 .f32) (x6 : Vec F S1x64 .f32) : Vec F S1024x64 .f32 :=
  View.canon [⟨rW, k0_pay1 (View.ld x0 rX) (View.ld x2 rW) (View.ld x1 rX) (View.ld x3 rW) (View.ld x4 rB) (View.ld x5 rM) (View.ld x6 rB)⟩]

/-- The proof data of the call on core `c`: the arrays as the call finds them; after the body each input buffer at its
    block and the result's at `out7` of the blocks; nothing kept between points beyond the core's other scoped buffers;
    nothing owed; the two column halves share x's array half and half, the two row halves W1's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t) (iblk m c 4 t) (iblk m c 5 t) (iblk m c 6 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t
    = out7 (iblk m c 0 t) (iblk m c 1 t) (iblk m c 2 t) (iblk m c 3 t) (iblk m c 4 t) (iblk m c 5 t) (iblk m c 6 t) := by
  dsimp only [dats]

end Cert.KernelIdeal.Run

end
-- ==== Proof.KBody.lean ====
/-
  The body of the call at a grid point: handed the seven input buffers at their blocks and the result's buffer at
  anything, it ends with the inputs as they were and the result's buffer at the one value it stores.
-/
import proofs.«149150_g25202868093193_cont_8to1_1016_10_alg».proof.Proof.KData
import Idealize.ShloMosaic.Lib.Pipeline.FrameBody
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## What the body finds in the input buffers -/

/-- At every grid point the current staging buffer of window 0 (the left column half of the activations) holds that window's block of
    its array, whether the block was moved in at this point or at an earlier one: the body leaves the block in place,
    and a point that moves nothing in has the same block index as the point before it. -/
theorem before_in0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)

/-- At every grid point the current staging buffer of window 1 (the right column half of the activations) holds that window's block of
    its array, whether the block was moved in at this point or at an earlier one: the body leaves the block in place,
    and a point that moves nothing in has the same block index as the point before it. -/
theorem before_in1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)

/-- At every grid point the current staging buffer of window 2 (the upper row half of the first weight matrix) holds that window's block of
    its array, whether the block was moved in at this point or at an earlier one: the body leaves the block in place,
    and a point that moves nothing in has the same block index as the point before it. -/
theorem before_in2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)

/-- At every grid point the current staging buffer of window 3 (the lower row half of the first weight matrix) holds that window's block of
    its array, whether the block was moved in at this point or at an earlier one: the body leaves the block in place,
    and a point that moves nothing in has the same block index as the point before it. -/
theorem before_in3 (c : Dev nD) (t : Fin cfg0.N) (d) : (dats m 0 c).before 3 t d = iblk m c 3 t :=
  ((dats m 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)

/-- At every grid point the current staging buffer of window 4 (the first bias as a row) holds that window's block of
    its array, whether the block was moved in at this point or at an earlier one: the body leaves the block in place,
    and a point that moves nothing in has the same block index as the point before it. -/
theorem before_in4 (c : Dev nD) (t : Fin cfg0.N) (d) : (dats m 0 c).before 4 t d = iblk m c 4 t :=
  ((dats m 0 c).before_in_eq_fetched 4 rfl (fun _ => rfl) (fun _ _ _ => rfl)
      (fun t => by rw [after4]; unfold Dat.blockOf iblk; rw [A_eq]; try rfl) t d).trans
    (by unfold Dat.fetched Dat.blockOf iblk; rw [A_eq]; try rfl)

/-- At every grid point the current staging buffer of window 5 (the second weight matrix) holds that window's block of
    its array, whether the block was moved in at this point or at an earlier one: the body leaves the block in place,
    and a point that moves nothing in has the same block index as the point before it. -/
theorem before_in5 (c : Dev nD) (t : Fin cfg0.N) (d) : (dats m 0 c).before 5 t d = iblk m c 5 t :=
  ((dats m 0 c).before_in_eq_fetched 5 rfl (fun _ => rfl) (fun _ _ _ => rfl)
      (fun t => by rw [after5]; unfold Dat.blockOf iblk; rw [A_eq]; try rfl) t d).trans
    (by unfold Dat.fetched Dat.blockOf iblk; rw [A_eq]; try rfl)

/-- At every grid point the current staging buffer of window 6 (the second bias as a row) holds that window's block of
    its array, whether the block was moved in at this point or at an earlier one: the body leaves the block in place,
    and a point that moves nothing in has the same block index as the point before it. -/
theorem before_in6 (c : Dev nD) (t : Fin cfg0.N) (d) : (dats m 0 c).before 6 t d = iblk m c 6 t :=
  ((dats m 0 c).before_in_eq_fetched 6 rfl (fun _ => rfl) (fun _ _ _ => rfl)
      (fun t => by rw [after6]; unfold Dat.blockOf iblk; rw [A_eq]; try rfl) t d).trans
    (by unfold Dat.fetched Dat.blockOf iblk; rw [A_eq]; try rfl)

/-! ## The result block is covered by its one store -/

/-- The body's one store writes the whole 1024 × 64 result block, so every index of the block lies in it. -/
theorem cover_out (p0 : Vec F S1024x64 .f32) (y : S1024x64.Idx) :
    ∃ pc ∈ ([⟨rW, p0⟩] : List (View.Piece (Elt F) S1024x64 .f32)), y ∈ pc.1.set :=
  View.cover_of_tiled [⟨rW, p0⟩] S1024x64.size (by rfl) y

/-! ## The kernel function's triple -/

set_option maxHeartbeats 1000000 in
/-- The kernel function on eight whole staging memrefs, the seven inputs' reading `x0` … `x6` (in window order) and
    the result's reading anything, runs to a continuation that holds the seven inputs' as they were and the result's
    at `out7` of the inputs: it reads each input whole, reads the result's buffer (a value it never uses) and stores
    one value over the whole of the result's buffer. -/
theorem sound_kernel (c : Dev nD) (E : Set ℕ) (i : grid0.Coords)
    (arg1 : Memref sig .tc .vmem S1024x1024 .f32) (harg1 : arg1.IsWhole)
    (arg2 : Memref sig .tc .vmem S1024x1024 .f32) (harg2 : arg2.IsWhole)
    (arg3 : Memref sig .tc .vmem S1024x64 .f32) (harg3 : arg3.IsWhole)
    (arg4 : Memref sig .tc .vmem S1024x64 .f32) (harg4 : arg4.IsWhole)
    (arg5 : Memref sig .tc .vmem S1x64 .f32) (harg5 : arg5.IsWhole)
    (arg6 : Memref sig .tc .vmem S64x64 .f32) (harg6 : arg6.IsWhole)
    (arg7 : Memref sig .tc .vmem S1x64 .f32) (harg7 : arg7.IsWhole)
    (arg8 : Memref sig .tc .vmem S1024x64 .f32) (harg8 : arg8.IsWhole)
    (x0 x1 : Vec F S1024x1024 .f32) (x2 x3 : Vec F S1024x64 .f32) (x4 : Vec F S1x64 .f32)
    (x5 : Vec F S64x64 .f32) (x6 : Vec F S1x64 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ (∃ d, owns (c : Thread nD τ) arg8 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
            ∗ owns (c : Thread nD τ) arg8 fullShare (out7 x0 x1 x2 x3 x4 x5 x6)) -∗ K ⟨⟩))
      ⊢ wp frame (wpE (defs₀ (F := F)) Variants.none c none) E
          (cc0__router_block i arg1 harg1 arg2 harg2 arg3 harg3 arg4 harg4 arg5 harg5 arg6 harg6 arg7 harg7 arg8 harg8) K := by
  simp only [cc0__router_block_eq_skeleton]; unfold cc0__router_block_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover_out _)

/-! ## The body obligation at a grid point -/

/-- What the body is handed at point `t`: the invariant, the core's debts, and each window's current staging buffer
    at what the pipeline left in it. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What the body hands back at point `t`: the invariant, the core's debts, and each window's current staging buffer
    at what the proof data says the body leaves there. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any grid point: the seven input buffers hold their blocks, so the kernel function's triple applies at
    the blocks; the invariant and the debts are the same before and after and are passed through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation of the call on core `c`, at every grid point. -/
theorem body_obligation (c : Dev nD) :
    BodyObligation (dats (F := F) m 0 c) (defs₀ (F := F)) Variants.none () Set.univ := fun t => by
  rw [bigSep_W0, bigSep_W0]
  exact sound_body m c t

end Cert.KernelIdeal.Run

end
-- ==== Proof.KLaunch.lean ====
/-
  The run of the whole program, at any float instance: the two reshapes of the biases, then the pipelined call.

  The call's windows 0 and 1 read the one array x and windows 2 and 3 the one array W1, so at entry each of those
  two arrays, held whole, is split into two half shares, one per window; the other four arrays go to their windows
  whole. The two bias vectors themselves are no window's array (their reshapes are): they pass by the call untouched.
  From the body's obligation at every grid point the run terminates without a fault, every windowed array ends at what
  the write-backs leave, and every other unscoped buffer as the call found it. The argument arrays are inputs of the
  call or pass by it, so they end as launched: the frame.
-/
import proofs.«149150_g25202868093193_cont_8to1_1016_10_alg».proof.Proof.KData
import proofs.«149150_g25202868093193_cont_8to1_1016_10_alg».proof.Proof.KBody
import Idealize.ShloMosaic.Lib.Pipeline.FrameBody

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the call -/

theorem hostOps0_fresh : (hostOps0 : List (HloOp τ sig (Elt F))).Forall fun op => op.fresh = ∅ := by
  simp only [List.Forall]; repeat' constructor

/-- The two reshapes, then the call: the call is entered with the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither reshape writes an argument array: the call finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))

/-! ## The arrays at the call's entry, window by window -/

/-- The six distinct buffers behind the eight windows' arrays, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0) ∗ (((c : Thread nD τ).loc main_arg3) ↦{fullShare} W main_arg3)
          ∗ (((c : Thread nD τ).loc main_v1) ↦{fullShare} W main_v1) ∗ (((c : Thread nD τ).loc main_v2) ↦{fullShare} W main_v2)) := by
  unfold Pipeline.arrBufs
  exact bigSep_eq_bigSepL_of_eq [main_arg0, main_arg1, main_v0, main_arg3, main_v1, main_v2] (by decide) (by decide) _

/-- The call's arrays at contents `G`, each array a whole buffer: window by window, at its share. -/
theorem arrays_eq (c : Dev nD) (G : (w : Fin cfg0.W) → Buf (Elt F) ((cfg0.win w).arr.view.loc (c : Thread nD τ))) :
    ((dats m 0 c).arrays G : sProp 𝕄)
      = bigSep Finset.univ fun w : Fin 8 => (((c : Thread nD τ).loc (Pipeline.arrRef spec0 w)) ↦{(dats m 0 c).share w} G w : sProp 𝕄) := by
  unfold Dat.arrays
  exact bigSep_congr fun w _ => by rw [(arr_whole0 w).set_eq_univ]

/-- The two windows on x hold the left and the right half of its share, the two on W1 likewise; the rest hold theirs whole. -/
theorem share0 (c : Dev nD) : (dats m 0 c).share 0 = fullShare.left := rfl
theorem share1 (c : Dev nD) : (dats m 0 c).share 1 = fullShare.right := rfl
theorem share2 (c : Dev nD) : (dats m 0 c).share 2 = fullShare.left := rfl
theorem share3 (c : Dev nD) : (dats m 0 c).share 3 = fullShare.right := rfl
theorem share4 (c : Dev nD) : (dats m 0 c).share 4 = fullShare := rfl
theorem share5 (c : Dev nD) : (dats m 0 c).share 5 = fullShare := rfl
theorem share6 (c : Dev nD) : (dats m 0 c).share 6 = fullShare := rfl
theorem share7 (c : Dev nD) : (dats m 0 c).share 7 = fullShare := rfl

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq, bigSep_W0, share0, share1, share2, share3, share4, share5, share6, share7]
  show _ ⊢ iprop((((c : Thread nD τ).loc main_arg0) ↦{fullShare.left} V m c main_arg0)
      ∗ (((c : Thread nD τ).loc main_arg0) ↦{fullShare.right} V m c main_arg0)
      ∗ (((c : Thread nD τ).loc main_arg1) ↦{fullShare.left} V m c main_arg1)
      ∗ (((c : Thread nD τ).loc main_arg1) ↦{fullShare.right} V m c main_arg1)
      ∗ (((c : Thread nD τ).loc main_v0) ↦{fullShare} V m c main_v0)
      ∗ (((c : Thread nD τ).loc main_arg3) ↦{fullShare} V m c main_arg3)
      ∗ (((c : Thread nD τ).loc main_v1) ↦{fullShare} V m c main_v1)
      ∗ (((c : Thread nD τ).loc main_v2) ↦{fullShare} V m c main_v2))
  iintro ⟨H0, H1, Hv0, H3, Hv1, Hv2⟩
  ihave H0' := (pointsTo_share (PosShare.mem_left_op_right fullShare)).1 $$ H0
  icases H0' with ⟨H0l, H0r⟩
  ihave H1' := (pointsTo_share (PosShare.mem_left_op_right fullShare)).1 $$ H1
  icases H1' with ⟨H1l, H1r⟩
  isplitl [H0l]; · iexact H0l
  isplitl [H0r]; · iexact H0r
  isplitl [H1l]; · iexact H1l
  isplitl [H1r]; · iexact H1r
  isplitl [Hv0]; · iexact Hv0
  isplitl [H3]; · iexact H3
  isplitl [Hv1]; · iexact Hv1
  iexact Hv2

/-! ## The run -/

/-- Between points the call keeps nothing but the core's other scoped buffers. -/
theorem Φ_eq (c : Dev nD) (t : Fin (cfg0.N + 1)) :
    (dats m 0 c).Φ t = (Pipeline.scopedRest (Ix := Unit) (Name := ℕ) (U := UR sig nD τ) (Lvl := ℕ) (Val := Elt F) spec0 c : sProp 𝕄) := rfl

set_option backward.isDefEq.respectTransparency.types false in
/-- From any memory with zero counters every weakly fair execution of the program terminates without a fault; every
    windowed array ends at what the write-backs leave, every other unscoped buffer as the call found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [Φ_eq]
      iintro ⟨-, H⟩
      iexact H)
    (hout := fun c => by
      rw [Φ_eq]
      iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The run read at the program's buffers: the result array ends at what the eight write-backs leave, and the five
    argument arrays end as launched (x, W1 and W2 are inputs of the call, the two bias vectors pass by it). -/
theorem run_result : θ_run defs (onTc (τ := τ) (main (F := F))) ⟨m, fun _ => 0, ρ⟩ (fun r => ∀ c : Dev nD,
      r.2.mem ((c.tc : Thread nD τ).loc main_v2) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c).1 7,
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).1 5).trans (((dats m 0 c).arrAt_in 5 rfl _).trans ((A_eq m c 5).trans (V_main_arg3 m c))),
      ((h c).2 main_arg4 (Pipeline.mem_restRefs_of main_arg4 (by decide) (by decide))).trans (V_main_arg4 m c)⟩)
    (run_main m ρ)

/-- The frame: the run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_result m ρ)

end Cert.KernelIdeal.Run

end
-- ==== Proof.Spec.lean ====
/-
  The routed softmax, as one function of the five argument arrays.

  For a row r of the activations x (8192 × 2048): the hidden vector is max(x[r,:]·W1 + b1, 0) (64 entries), the
  logits are hidden·W2 + b2 (64 entries), and the result row is the softmax of the logits, computed the stable way:
  subtract the row's maximum, exponentiate, divide by the sum of the exponentials. Everything is on the extended
  reals; the row maximum is the fold of max from -∞.

  `head` is everything after the first bias is added, as a function of one row's pre-activations; the whole-array
  function `G` and the per-block function `Gblk` (what one grid point computes from its blocks: the first product
  taken as two half-length products, each onto a zero accumulator) both end in it.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The logits of one row from its hidden vector: hidden·W2 + b2. -/
def logits (h : Fin 64 → EReal) (W2 : (⟨2, ![64, 64]⟩ : Shape).Idx → EReal) (b2 : Fin 64 → EReal) (e : Fin 64) : EReal :=
  (∑ j : Fin 64, h j * W2 (ix2 j e)) + b2 e

/-- The maximum of a row of 64 extended reals, folded from -∞ (the f32 pattern of -∞). -/
def rowMax (l : Fin 64 → EReal) : EReal :=
  (Finset.univ : Finset (Fin 64)).fold max (Ideal.ofBits .f32 0xFF800000#32) l

/-- The stable softmax of a row of 64 logits, at entry e. -/
def softmaxRow (l : Fin 64 → EReal) (e : Fin 64) : EReal :=
  Ideal.div (Ideal.exp (l e - rowMax l)) (∑ e' : Fin 64, Ideal.exp (l e' - rowMax l))

/-- From a row's pre-activations (x·W1 + b1) to its result row: the rectifier, the second layer, the softmax. -/
def head (pre : Fin 64 → EReal) (W2 : (⟨2, ![64, 64]⟩ : Shape).Idx → EReal) (b2 : Fin 64 → EReal) (e : Fin 64) : EReal :=
  softmaxRow (logits (fun j => max (pre j) (Ideal.ofBits .f32 0x00000000#32)) W2 b2) e

/-- The whole result: row r, entry e. -/
def G (x : (⟨2, ![8192, 2048]⟩ : Shape).Idx → EReal) (W1 : (⟨2, ![2048, 64]⟩ : Shape).Idx → EReal)
    (b1 : (⟨1, ![64]⟩ : Shape).Idx → EReal) (W2 : (⟨2, ![64, 64]⟩ : Shape).Idx → EReal)
    (b2 : (⟨1, ![64]⟩ : Shape).Idx → EReal) (r : Fin 8192) (e : Fin 64) : EReal :=
  head (fun j => (∑ k : Fin 2048, x (ix2 r k) * W1 (ix2 k j)) + b1 (ix1 j)) W2 (fun e' => b2 (ix1 e')) e

/-- What one grid point computes from its blocks: row p of the block, entry e. The activations' block comes as its
    left and right column halves `xa`, `xb`, the first weights as their upper and lower row halves `wa`, `wb`, the
    biases as 1 × 64 rows. -/
def Gblk (xa xb : (⟨2, ![1024, 1024]⟩ : Shape).Idx → EReal) (wa wb : (⟨2, ![1024, 64]⟩ : Shape).Idx → EReal)
    (b1r : (⟨2, ![1, 64]⟩ : Shape).Idx → EReal) (W2 : (⟨2, ![64, 64]⟩ : Shape).Idx → EReal)
    (b2r : (⟨2, ![1, 64]⟩ : Shape).Idx → EReal) (p : Fin 1024) (e : Fin 64) : EReal :=
  head (fun j => ((∑ k : Fin 1024, xa (ix2 p k) * wa (ix2 k j)) + (∑ k : Fin 1024, xb (ix2 p k) * wb (ix2 k j)))
    + b1r (ix2 (0 : Fin 1) j)) W2 (fun e' => b2r (ix2 (0 : Fin 1) e')) e

/-- `G` as an array over the result's index. -/
def Garr (x : (⟨2, ![8192, 2048]⟩ : Shape).Idx → EReal) (W1 : (⟨2, ![2048, 64]⟩ : Shape).Idx → EReal)
    (b1 : (⟨1, ![64]⟩ : Shape).Idx → EReal) (W2 : (⟨2, ![64, 64]⟩ : Shape).Idx → EReal)
    (b2 : (⟨1, ![64]⟩ : Shape).Idx → EReal) : (⟨2, ![8192, 64]⟩ : Shape).Idx → EReal :=
  fun i => G x W1 b1 W2 b2 (i 0) (i 1)

end Cert.Spec

end
-- ==== Proof.LibKeepdims.lean ====
/-
  Keepdims forms read at an index, and a lane sum as a plain sum.

  A row-wise reduction with `keepdims=True` leaves a vector [a] that is cast to a column [a, 1] and then broadcast
  across the columns to [a, b]; or, for the other operand of an outer sum, cast to a column [b, 1], transposed to a
  row [1, b] and broadcast down the rows to [a, b]. Read at (p, q) the first is the vector at p and the second the
  vector at q. A `[1, b]` block cast to itself and broadcast down the rows reads its one row at q. And at the
  ideal values a sum along the lanes of an [a, b] array, read at row p, is the plain sum over the row.
  All for any extents.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibKeepdims

open Idealize.ShloMosaic Idealize.ShloMosaic.ValueIdx

variable {α : Type}

/-- A vector [a] as a column [a, 1] broadcast across the columns of [a, b]: at (p, q), the vector at p. -/
theorem column_broadcast_apply {a b : ℕ} (v : (⟨1, ![a]⟩ : Shape).Idx → α)
    (h₁ : (⟨1, ![a]⟩ : Shape).ShapeCasts ⟨2, ![a, 1]⟩) (h₂ : (⟨2, ![a, 1]⟩ : Shape).Broadcasts ⟨2, ![a, b]⟩)
    (p : Fin a) (q : Fin b) :
    broadcastTo ⟨2, ![a, b]⟩ (shapeCast ⟨2, ![a, 1]⟩ v h₁) h₂ (ix2 p q) = v (ix1 p) := by
  refine (broadcastTo_apply _ h₂ (ix2 p q) (ix2 p (0 : Fin 1)) fun ax => ?_).trans
    (shapeCast_apply v h₁ _ _ ?_)
  · match ax with
    | ⟨0, _⟩ =>
      show p.val = if a = 1 then 0 else p.val
      split
      · have := p.isLt; omega
      · rfl
    | ⟨1, _⟩ => rfl
  · rw [Shape.rowMajor_val_one, Shape.rowMajor_val_two]
    show p.val = p.val * 1 + 0
    omega

/-- A vector [b] as a column [b, 1], transposed to a row [1, b] and broadcast down the rows of [a, b]: at (p, q),
    the vector at q. -/
theorem row_of_column_broadcast_apply {a b : ℕ} (v : (⟨1, ![b]⟩ : Shape).Idx → α)
    (h₁ : (⟨1, ![b]⟩ : Shape).ShapeCasts ⟨2, ![b, 1]⟩) (h₃ : (⟨2, ![b, 1]⟩ : Shape).Transposes [1, 0] ⟨2, ![1, b]⟩)
    (h₂ : (⟨2, ![1, b]⟩ : Shape).Broadcasts ⟨2, ![a, b]⟩) (p : Fin a) (q : Fin b) :
    broadcastTo ⟨2, ![a, b]⟩ (transpose ⟨2, ![1, b]⟩ [1, 0] (shapeCast ⟨2, ![b, 1]⟩ v h₁) h₃) h₂ (ix2 p q) = v (ix1 q) := by
  refine (broadcastTo_1b_ab_apply _ h₂ p q).trans ((transpose_ix2_apply _ h₃ (0 : Fin 1) q).trans
    (shapeCast_apply v h₁ _ _ ?_))
  rw [Shape.rowMajor_val_one, Shape.rowMajor_val_two]
  show q.val = q.val * 1 + 0
  omega

/-- A [1, b] block cast to its own shape and broadcast down the rows of [a, b]: at (p, q), its one row at q. -/
theorem row_broadcast_apply {a b : ℕ} (v : (⟨2, ![1, b]⟩ : Shape).Idx → α)
    (h₁ : (⟨2, ![1, b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix2 (0 : Fin 1) q) :=
  (broadcastTo_1b_ab_apply _ h₂ p q).trans (congrFun (shapeCast_self v h₁) _)

/-- At the ideal values the sum along the lanes of an [a, b] array from the zero pattern, read at row p, is the
    sum of the row. -/
theorem lane_sum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec (FTy.bits .f32)) = FKind.add.neutral .f32 hφ) (p : Fin a) :
    multiReduction (F := Ideal) .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src
      (funext fun ax => Fin.ext (by match ax with | ⟨0, _⟩ => rfl | ⟨1, _⟩ => rfl)))

end Cert.LibKeepdims

end
-- ==== Proof.KPay.lean ====
/-
  The value one grid point stores, read at row p and entry e of the block, is the per-block function of the blocks it loaded.
-/
import proofs.«149150_g25202868093193_cont_8to1_1016_10_alg».proof.Proof.Gen.KernelIdeal.Skeleton
import proofs.«149150_g25202868093193_cont_8to1_1016_10_alg».proof.Proof.Spec
import proofs.«149150_g25202868093193_cont_8to1_1016_10_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen

/-! ## The two contractions read at an index -/

/-- The left operand's index of the first contraction keeps the output's row. -/
theorem lhs_first_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
/-- The left operand's index of the first contraction runs its column over the contraction index. -/
theorem lhs_first_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
/-- The right operand's index of the first contraction runs its row over the contraction index. -/
theorem rhs_first_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
/-- The right operand's index of the first contraction keeps the output's column. -/
theorem rhs_first_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- The left operand's index of the second contraction keeps the output's row. -/
theorem lhs_second_0 (i : S1024x64.Idx) (q : dot_S1024x64_S64x64_S1024x64_1_0_0_1_n_n.contr.Idx) :
    (dot_S1024x64_S64x64_S1024x64_1_0_0_1_n_n.lhsIdx i q 0).val = (i 0).val := by
  unfold DotDims.lhsIdx
  rw [dif_neg (show ¬(0 : Fin S1024x64.rank) ∈ dot_S1024x64_S64x64_S1024x64_1_0_0_1_n_n.lhsBatch by decide), dif_pos (show (0 : Fin S1024x64.rank) ∈ dot_S1024x64_S64x64_S1024x64_1_0_0_1_n_n.lhsNonContracting by decide)]
  rfl
/-- The left operand's index of the second contraction runs its column over the contraction index. -/
theorem lhs_second_1 (i : S1024x64.Idx) (q : dot_S1024x64_S64x64_S1024x64_1_0_0_1_n_n.contr.Idx) :
    (dot_S1024x64_S64x64_S1024x64_1_0_0_1_n_n.lhsIdx i q 1).val = (q ⟨0, by decide⟩).val :=
  dot_S1024x64_S64x64_S1024x64_1_0_0_1_n_n.lhsIdx_val_of_single rfl i q
/-- The right operand's index of the second contraction runs its row over the contraction index. -/
theorem rhs_second_0 (i : S1024x64.Idx) (q : dot_S1024x64_S64x64_S1024x64_1_0_0_1_n_n.contr.Idx) :
    (dot_S1024x64_S64x64_S1024x64_1_0_0_1_n_n.rhsIdx i q 0).val = (q ⟨0, by decide⟩).val :=
  dot_S1024x64_S64x64_S1024x64_1_0_0_1_n_n.rhsIdx_val_of_single rfl i q
/-- The right operand's index of the second contraction keeps the output's column. -/
theorem rhs_second_1 (i : S1024x64.Idx) (q : dot_S1024x64_S64x64_S1024x64_1_0_0_1_n_n.contr.Idx) :
    (dot_S1024x64_S64x64_S1024x64_1_0_0_1_n_n.rhsIdx i q 1).val = (i 1).val := by
  unfold DotDims.rhsIdx
  rw [dif_neg (show ¬(1 : Fin S64x64.rank) ∈ dot_S1024x64_S64x64_S1024x64_1_0_0_1_n_n.rhsBatch by decide), dif_pos (show (1 : Fin S64x64.rank) ∈ dot_S1024x64_S64x64_S1024x64_1_0_0_1_n_n.rhsNonContracting by decide)]
  rfl

/-- A 1024 × 1024 block times a 1024 × 64 block onto the zero accumulator, at (p, j): the sum over k of l(p, k) · r(k, j). -/
theorem mm1_apply (l : FVec Ideal S1024x1024 .f32) (r : FVec Ideal S1024x64 .f32) (p : Fin 1024) (j : Fin 64) :
    matmul (F := Ideal) (φ₁ := .f32) (φ₂ := .f32) dot_S1024x1024_S1024x64_S1024x64_1_0_0_1_n_n none l r (constant S1024x64 .f32 0x00000000#32) (ix2 p j)
      = ∑ k : Fin 1024, l (ix2 p k) * r (ix2 k j) := by
  refine (Ideal.matmul_constant_zero_apply dot_S1024x1024_S1024x64_S1024x64_1_0_0_1_n_n none l r (ix2 p j)).trans ?_
  rw [← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 p j) ((contrEquiv1 dot_S1024x1024_S1024x64_S1024x64_1_0_0_1_n_n 1024 rfl rfl).symm k) = ix2 p k := funext fun a => Fin.ext (by
    match a with
    | ⟨0, _⟩ => exact lhs_first_0 _ _
    | ⟨1, _⟩ => exact (lhs_first_1 _ _).trans hk)
  have er : dot_S1024x1024_S1024x64_S1024x64_1_0_0_1_n_n.rhsIdx (ix2 p j) ((contrEquiv1 dot_S1024x1024_S1024x64_S1024x64_1_0_0_1_n_n 1024 rfl rfl).symm k) = ix2 k j := funext fun a => Fin.ext (by
    match a with
    | ⟨0, _⟩ => exact (rhs_first_0 _ _).trans hk
    | ⟨1, _⟩ => exact rhs_first_1 _ _)
  rw [el, er]

/-- A 1024 × 64 block times a 64 × 64 block onto the zero accumulator, at (p, j): the sum over k of l(p, k) · r(k, j). -/
theorem mm2_apply (l : FVec Ideal S1024x64 .f32) (r : FVec Ideal S64x64 .f32) (p : Fin 1024) (j : Fin 64) :
    matmul (F := Ideal) (φ₁ := .f32) (φ₂ := .f32) dot_S1024x64_S64x64_S1024x64_1_0_0_1_n_n none l r (constant S1024x64 .f32 0x00000000#32) (ix2 p j)
      = ∑ k : Fin 64, l (ix2 p k) * r (ix2 k j) := by
  refine (Ideal.matmul_constant_zero_apply dot_S1024x64_S64x64_S1024x64_1_0_0_1_n_n none l r (ix2 p j)).trans ?_
  rw [← Equiv.sum_comp (contrEquiv1 dot_S1024x64_S64x64_S1024x64_1_0_0_1_n_n 64 rfl rfl).symm]
  refine Finset.sum_congr rfl fun k _ => ?_
  have hk := contrEquiv1_symm_val dot_S1024x64_S64x64_S1024x64_1_0_0_1_n_n 64 rfl rfl k
  have el : dot_S1024x64_S64x64_S1024x64_1_0_0_1_n_n.lhsIdx (ix2 p j) ((contrEquiv1 dot_S1024x64_S64x64_S1024x64_1_0_0_1_n_n 64 rfl rfl).symm k) = ix2 p k := funext fun a => Fin.ext (by
    match a with
    | ⟨0, _⟩ => exact lhs_second_0 _ _
    | ⟨1, _⟩ => exact (lhs_second_1 _ _).trans hk)
  have er : dot_S1024x64_S64x64_S1024x64_1_0_0_1_n_n.rhsIdx (ix2 p j) ((contrEquiv1 dot_S1024x64_S64x64_S1024x64_1_0_0_1_n_n 64 rfl rfl).symm k) = ix2 k j := funext fun a => Fin.ext (by
    match a with
    | ⟨0, _⟩ => exact (rhs_second_0 _ _).trans hk
    | ⟨1, _⟩ => exact rhs_second_1 _ _)
  rw [el, er]

/-! ## The row maximum, and a row statistic spread back across its row -/

/-- At the ideal values the maximum along the lanes of an [a, b] array from an initial pattern, read at row p, is the
    fold of max over the row from that pattern's value. -/
theorem lane_max_apply {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.maximumf.neutral .f32 hφ) (p : Fin a) :
    multiReduction (F := Ideal) .maximumf [1] ⟨1, ![a]⟩ src acc h hφ hacc (ix1 p)
      = (Finset.univ : Finset (Fin b)).fold max (Ideal.ofBits .f32 acc) (fun k => src (ix2 p k)) :=
  (Ideal.multiReduction_maximumf_single src acc h hφ hacc (ix1 p)).trans
    (congrArg (fun f => (Finset.univ : Finset (Fin b)).fold max (Ideal.ofBits .f32 acc) f)
      (funext fun k => congrArg src
        (funext fun ax => Fin.ext (by match ax with | ⟨0, _⟩ => rfl | ⟨1, _⟩ => rfl))))

/-- A row statistic (one value per row of the block) kept as a column and spread across the 64 entries of its row. -/
abbrev spread (v : FVec Ideal S1024 .f32) : FVec Ideal S1024x64 .f32 :=
  broadcastTo S1024x64 (shapeCast S1024x1 v shapeCasts_S1024_S1024x1) broadcasts_S1024x1_S1024x64

/-- A spread row statistic at (p, e) is the statistic of row p. -/
theorem spread_apply (v : FVec Ideal S1024 .f32) (p : Fin 1024) (e : Fin 64) : spread v (ix2 p e) = v (ix1 p) :=
  Cert.LibKeepdims.column_broadcast_apply v shapeCasts_S1024_S1024x1 broadcasts_S1024x1_S1024x64 p e

/-- A 1 × 64 row spread down the 1024 rows of the block. -/
abbrev rows (v : FVec Ideal S1x64 .f32) : FVec Ideal S1024x64 .f32 :=
  broadcastTo S1024x64 (shapeCast S1x64 v shapeCasts_S1x64_S1x64) broadcasts_S1x64_S1024x64

/-- A row spread down the block at (p, e) is the row at e. -/
theorem rows_apply (v : FVec Ideal S1x64 .f32) (p : Fin 1024) (e : Fin 64) : rows v (ix2 p e) = v (ix2 (0 : Fin 1) e) :=
  Cert.LibKeepdims.row_broadcast_apply v shapeCasts_S1x64_S1x64 broadcasts_S1x64_S1024x64 p e

/-! ## The softmax of a block of logits -/

/-- The block of exponentials of the logits less their row maxima. -/
def shifted (L : FVec Ideal S1024x64 .f32) : FVec Ideal S1024x64 .f32 :=
  exp (subf L (spread (multiReduction (F := Ideal) .maximumf [1] S1024 L 0xFF800000#32 reduces_S1024x64_S1024 (.inl rfl) rfl)))

/-- At (p, e): exp of the logit there less the maximum of row p. -/
theorem shifted_apply (L : FVec Ideal S1024x64 .f32) (p : Fin 1024) (e : Fin 64) :
    shifted L (ix2 p e) = Ideal.exp (L (ix2 p e) - Cert.Spec.rowMax (fun e' => L (ix2 p e'))) := by
  show Ideal.exp (L (ix2 p e) - spread _ (ix2 p e)) = _
  refine congrArg (fun t => Ideal.exp (L (ix2 p e) - t)) ?_
  exact (spread_apply _ p e).trans (lane_max_apply L _ reduces_S1024x64_S1024 (.inl rfl) rfl p)

/-- The exponentials divided by their row sums, at (p, e): the stable softmax of row p of the logits at e. -/
theorem softmax_block_apply (L : FVec Ideal S1024x64 .f32) (p : Fin 1024) (e : Fin 64) :
    divf (shifted L) (spread (multiReduction (F := Ideal) .add [1] S1024 (shifted L) 0x00000000#32 reduces_S1024x64_S1024 (.inl rfl) rfl)) (ix2 p e)
      = Cert.Spec.softmaxRow (fun e' => L (ix2 p e')) e := by
  show Ideal.div (shifted L (ix2 p e)) (spread _ (ix2 p e)) = _
  unfold Cert.Spec.softmaxRow
  refine congrArg₂ Ideal.div (shifted_apply L p e) ?_
  refine (spread_apply _ p e).trans
    ((Cert.LibKeepdims.lane_sum_apply (shifted L) reduces_S1024x64_S1024 (.inl rfl) rfl p).trans ?_)
  exact Finset.sum_congr rfl fun e' _ => shifted_apply L p e'

/-! ## The two layers -/

/-- The block of pre-activations x·W1 + b1, the product taken as the sum of the products of the two halves. -/
def preBlk (xa xb : Vec Ideal S1024x1024 .f32) (wa wb : Vec Ideal S1024x64 .f32) (b1r : Vec Ideal S1x64 .f32) :
    FVec Ideal S1024x64 .f32 :=
  addf (addf (matmul (F := Ideal) (φ₁ := .f32) (φ₂ := .f32) dot_S1024x1024_S1024x64_S1024x64_1_0_0_1_n_n none xa wa (constant S1024x64 .f32 0x00000000#32))
      (matmul (F := Ideal) (φ₁ := .f32) (φ₂ := .f32) dot_S1024x1024_S1024x64_S1024x64_1_0_0_1_n_n none xb wb (constant S1024x64 .f32 0x00000000#32))) (rows b1r)

/-- At (p, j): the two half sums and the bias. -/
theorem preBlk_apply (xa xb : Vec Ideal S1024x1024 .f32) (wa wb : Vec Ideal S1024x64 .f32) (b1r : Vec Ideal S1x64 .f32)
    (p : Fin 1024) (j : Fin 64) :
    preBlk xa xb wa wb b1r (ix2 p j)
      = ((∑ k : Fin 1024, xa (ix2 p k) * wa (ix2 k j)) + (∑ k : Fin 1024, xb (ix2 p k) * wb (ix2 k j)))
        + b1r (ix2 (0 : Fin 1) j) := by
  show (matmul (F := Ideal) (φ₁ := .f32) (φ₂ := .f32) dot_S1024x1024_S1024x64_S1024x64_1_0_0_1_n_n none xa wa (constant S1024x64 .f32 0x00000000#32) (ix2 p j)
      + matmul (F := Ideal) (φ₁ := .f32) (φ₂ := .f32) dot_S1024x1024_S1024x64_S1024x64_1_0_0_1_n_n none xb wb (constant S1024x64 .f32 0x00000000#32) (ix2 p j)) + rows b1r (ix2 p j) = _
  rw [mm1_apply, mm1_apply, rows_apply]

/-- The hidden block: the rectifier of a block. -/
def relu (P : FVec Ideal S1024x64 .f32) : FVec Ideal S1024x64 .f32 :=
  maximumf P (broadcast S1024x64 (Scalar.ofBits (F := Ideal) .f32 0x00000000#32))

/-- At an index: the maximum of the entry and the value of the zero pattern. -/
theorem relu_apply (P : FVec Ideal S1024x64 .f32) (i : S1024x64.Idx) :
    relu P i = max (P i) (Ideal.ofBits .f32 0x00000000#32) := rfl

/-- The block of logits from a hidden block: hidden·W2 + b2. -/
def logitsBlk (H : FVec Ideal S1024x64 .f32) (w2 : Vec Ideal S64x64 .f32) (b2r : Vec Ideal S1x64 .f32) :
    FVec Ideal S1024x64 .f32 :=
  addf (matmul (F := Ideal) (φ₁ := .f32) (φ₂ := .f32) dot_S1024x64_S64x64_S1024x64_1_0_0_1_n_n none H w2 (constant S1024x64 .f32 0x00000000#32)) (rows b2r)

/-- At (p, e): the logits of row p of the hidden block, at e. -/
theorem logitsBlk_apply (H : FVec Ideal S1024x64 .f32) (w2 : Vec Ideal S64x64 .f32) (b2r : Vec Ideal S1x64 .f32)
    (p : Fin 1024) (e : Fin 64) :
    logitsBlk H w2 b2r (ix2 p e)
      = Cert.Spec.logits (fun j => H (ix2 p j)) w2 (fun e' => b2r (ix2 (0 : Fin 1) e')) e := by
  show matmul (F := Ideal) (φ₁ := .f32) (φ₂ := .f32) dot_S1024x64_S64x64_S1024x64_1_0_0_1_n_n none H w2 (constant S1024x64 .f32 0x00000000#32) (ix2 p e) + rows b2r (ix2 p e) = _
  rw [mm2_apply, rows_apply]
  rfl

/-! ## The stored value -/

/-- The stored block is the softmax of the logits of the rectified pre-activations. -/
theorem pay_eq (xa xb : Vec Ideal S1024x1024 .f32) (wa wb : Vec Ideal S1024x64 .f32) (b1r : Vec Ideal S1x64 .f32)
    (w2 : Vec Ideal S64x64 .f32) (b2r : Vec Ideal S1x64 .f32) :
    k0_pay1 (F := Ideal) xa wa xb wb b1r w2 b2r
      = divf (shifted (logitsBlk (relu (preBlk xa xb wa wb b1r)) w2 b2r))
          (spread (multiReduction (F := Ideal) .add [1] S1024 (shifted (logitsBlk (relu (preBlk xa xb wa wb b1r)) w2 b2r))
            0x00000000#32 reduces_S1024x64_S1024 (.inl rfl) rfl)) := rfl

/-- The stored value at row p and entry e of the block is the per-block function of the loaded blocks: the softmax of
    the second layer of the rectified first layer, the first layer's product summed over the two halves. -/
theorem pay_eq_Gblk (xa xb : Vec Ideal S1024x1024 .f32) (wa wb : Vec Ideal S1024x64 .f32) (b1r : Vec Ideal S1x64 .f32)
    (w2 : Vec Ideal S64x64 .f32) (b2r : Vec Ideal S1x64 .f32) (p : Fin 1024) (e : Fin 64) :
    k0_pay1 (F := Ideal) xa wa xb wb b1r w2 b2r (ix2 p e) = Cert.Spec.Gblk xa xb wa wb b1r w2 b2r p e := by
  rw [pay_eq, softmax_block_apply]
  have hL : (fun e' : Fin 64 => logitsBlk (relu (preBlk xa xb wa wb b1r)) w2 b2r (ix2 p e'))
      = Cert.Spec.logits (fun j => relu (preBlk xa xb wa wb b1r) (ix2 p j)) w2 (fun e' => b2r (ix2 (0 : Fin 1) e')) :=
    funext fun e' => logitsBlk_apply _ w2 b2r p e'
  have hH : (fun j : Fin 64 => relu (preBlk xa xb wa wb b1r) (ix2 p j))
      = fun j => max (((∑ k : Fin 1024, xa (ix2 p k) * wa (ix2 k j)) + (∑ k : Fin 1024, xb (ix2 p k) * wb (ix2 k j)))
        + b1r (ix2 (0 : Fin 1) j)) (Ideal.ofBits .f32 0x00000000#32) :=
    funext fun j => (relu_apply _ _).trans (congrArg (fun t => max t (Ideal.ofBits .f32 0x00000000#32)) (preBlk_apply xa xb wa wb b1r p j))
  rw [hL, hH]
  rfl

end Cert.KernelIdeal.Pay

end
-- ==== Proof.SpecSplit.lean ====
/-
  One grid point's function of its blocks is the whole function at the block's rows: a sum over 2048 columns is the
  sum over the first 1024 plus the sum over the last 1024 (addition on the extended reals is commutative and
  associative, so no finiteness is needed).
-/
import proofs.«149150_g25202868093193_cont_8to1_1016_10_alg».proof.Proof.Spec
import Mathlib.Algebra.BigOperators.Fin

noncomputable section

namespace Cert.Spec

open Idealize.ShloMosaic Idealize.ShloMosaic.ValueIdx

/-- A sum over 2048 indices is the sum over the first 1024 indices plus the sum over the last 1024 indices. -/
theorem sum_2048_split (f : Fin 2048 → EReal) :
    (∑ k : Fin 2048, f k)
      = (∑ k : Fin 1024, f (⟨k.val, by omega⟩ : Fin 2048))
        + (∑ k : Fin 1024, f (⟨1024 + k.val, by omega⟩ : Fin 2048)) := by
  have h := Fin.sum_univ_add (M := EReal) (a := 1024) (b := 1024) (fun i : Fin (1024 + 1024) => f i)
  exact h

/-- One row's first-layer dot product over 2048 columns, computed from the left and right column halves of the
    row and the upper and lower row halves of the weights. -/
theorem dot_split (x : (⟨2, ![8192, 2048]⟩ : Shape).Idx → EReal) (W1 : (⟨2, ![2048, 64]⟩ : Shape).Idx → EReal)
    (xa xb : (⟨2, ![1024, 1024]⟩ : Shape).Idx → EReal) (wa wb : (⟨2, ![1024, 64]⟩ : Shape).Idx → EReal)
    (p : Fin 1024) (r : Fin 8192) (j : Fin 64)
    (hxa : ∀ k : Fin 1024, xa (ix2 p k) = x (ix2 r (⟨k.val, by omega⟩ : Fin 2048)))
    (hxb : ∀ k : Fin 1024, xb (ix2 p k) = x (ix2 r (⟨1024 + k.val, by omega⟩ : Fin 2048)))
    (hwa : ∀ (k : Fin 1024) (j : Fin 64), wa (ix2 k j) = W1 (ix2 (⟨k.val, by omega⟩ : Fin 2048) j))
    (hwb : ∀ (k : Fin 1024) (j : Fin 64), wb (ix2 k j) = W1 (ix2 (⟨1024 + k.val, by omega⟩ : Fin 2048) j)) :
    (∑ k : Fin 1024, xa (ix2 p k) * wa (ix2 k j)) + (∑ k : Fin 1024, xb (ix2 p k) * wb (ix2 k j))
      = ∑ k : Fin 2048, x (ix2 r k) * W1 (ix2 k j) := by
  rw [sum_2048_split (fun k : Fin 2048 => x (ix2 r k) * W1 (ix2 k j))]
  congr 1
  · exact Finset.sum_congr rfl (fun k _ => by rw [hxa k, hwa k j])
  · exact Finset.sum_congr rfl (fun k _ => by rw [hxb k, hwb k j])

/-- What one grid point computes from its half-blocks is the whole function at the block's row. -/
theorem Gblk_eq_G (x : (⟨2, ![8192, 2048]⟩ : Shape).Idx → EReal) (W1 : (⟨2, ![2048, 64]⟩ : Shape).Idx → EReal)
    (b1 : (⟨1, ![64]⟩ : Shape).Idx → EReal) (W2 : (⟨2, ![64, 64]⟩ : Shape).Idx → EReal)
    (b2 : (⟨1, ![64]⟩ : Shape).Idx → EReal)
    (xa xb : (⟨2, ![1024, 1024]⟩ : Shape).Idx → EReal) (wa wb : (⟨2, ![1024, 64]⟩ : Shape).Idx → EReal)
    (b1r b2r : (⟨2, ![1, 64]⟩ : Shape).Idx → EReal) (p : Fin 1024) (r : Fin 8192) (e : Fin 64)
    (hxa : ∀ k : Fin 1024, xa (ix2 p k) = x (ix2 r (⟨k.val, by omega⟩ : Fin 2048)))
    (hxb : ∀ k : Fin 1024, xb (ix2 p k) = x (ix2 r (⟨1024 + k.val, by omega⟩ : Fin 2048)))
    (hwa : ∀ (k : Fin 1024) (j : Fin 64), wa (ix2 k j) = W1 (ix2 (⟨k.val, by omega⟩ : Fin 2048) j))
    (hwb : ∀ (k : Fin 1024) (j : Fin 64), wb (ix2 k j) = W1 (ix2 (⟨1024 + k.val, by omega⟩ : Fin 2048) j))
    (hb1 : ∀ j : Fin 64, b1r (ix2 (0 : Fin 1) j) = b1 (ix1 j))
    (hb2 : ∀ j : Fin 64, b2r (ix2 (0 : Fin 1) j) = b2 (ix1 j)) :
    Gblk xa xb wa wb b1r W2 b2r p e = G x W1 b1 W2 b2 r e := by
  unfold Gblk G
  have hpre : (fun j : Fin 64 =>
        ((∑ k : Fin 1024, xa (ix2 p k) * wa (ix2 k j)) + (∑ k : Fin 1024, xb (ix2 p k) * wb (ix2 k j)))
          + b1r (ix2 (0 : Fin 1) j))
      = (fun j : Fin 64 => (∑ k : Fin 2048, x (ix2 r k) * W1 (ix2 k j)) + b1 (ix1 j)) := by
    funext j
    rw [dot_split x W1 xa xb wa wb p r j hxa hxb hwa hwb, hb1 j]
  have hbias : (fun e' : Fin 64 => b2r (ix2 (0 : Fin 1) e')) = (fun e' : Fin 64 => b2 (ix1 e')) := by
    funext e'
    exact hb2 e'
  rw [hpre, hbias]

end Cert.Spec

end
-- ==== Proof.KValue.lean ====
/-
  The result array after the call, at the ideal values, is the routed softmax of the five argument arrays.

  Each grid point t stores one block of 1024 rows. Its seven input blocks are, read where the window maps put them:
  columns 0..1023 and 1024..2047 of rows 1024·t .. 1024·t + 1023 of the activations, rows 0..1023 and 1024..2047 of the
  first weights, the two biases laid as 1 × 64 rows, and the whole second weight matrix. So the block the point stores
  is rows 1024·t .. 1024·t + 1023 of the routed softmax, and the eight blocks tile the 8192 rows of the result.
-/
import proofs.«149150_g25202868093193_cont_8to1_1016_10_alg».proof.Proof.KData
import proofs.«149150_g25202868093193_cont_8to1_1016_10_alg».proof.Proof.KPay
import proofs.«149150_g25202868093193_cont_8to1_1016_10_alg».proof.Proof.SpecSplit
import Idealize.ShloMosaic.Lib.Pipeline.Value
import Idealize.ShloMosaic.Lib.ValueIdx
import Idealize.ShloMosaic.Lib.StableHlo.Run

set_option maxRecDepth 16384

noncomputable section

namespace Cert.KernelIdeal.RunValue

open Idealize.ShloMosaic Idealize.ShloMosaic.TcCoe Idealize.ShloMosaic.ValueIdx Idealize.SL.Sem
open Cert.KernelIdeal Cert.KernelIdeal.Gen Cert.KernelIdeal.Run

variable (m : (ℓ : Loc nD τ sig) → Buf (Elt Ideal) ℓ)

/-- The pair of zero offsets is the constant zero offset. -/
theorem hz : (![0, 0] : Fin 2 → Nat) = fun _ => 0 := funext fun a => by fin_cases a <;> rfl

/-! ## Where each window's block sits -/

/-- The block index of each of the eight windows at grid point t, axis by axis: the two column halves of the
    activations are blocks (t, 0) and (t, 1), the two row halves of the first weights are blocks (0, 0) and (1, 0),
    the biases and the second weights are the one block (0, 0), and the result's block is (t, 0). -/
theorem idx_facts : ∀ t : Fin cfg0.N,
    win0_0.index t (0 : Fin 2) = t.val ∧ win0_0.index t (1 : Fin 2) = 0
  ∧ win0_1.index t (0 : Fin 2) = t.val ∧ win0_1.index t (1 : Fin 2) = 1
  ∧ win0_2.index t (0 : Fin 2) = 0 ∧ win0_2.index t (1 : Fin 2) = 0
  ∧ win0_3.index t (0 : Fin 2) = 1 ∧ win0_3.index t (1 : Fin 2) = 0
  ∧ win0_4.index t (0 : Fin 2) = 0 ∧ win0_4.index t (1 : Fin 2) = 0
  ∧ win0_5.index t (0 : Fin 2) = 0 ∧ win0_5.index t (1 : Fin 2) = 0
  ∧ win0_6.index t (0 : Fin 2) = 0 ∧ win0_6.index t (1 : Fin 2) = 0
  ∧ win0_7.index t (0 : Fin 2) = t.val ∧ win0_7.index t (1 : Fin 2) = 0 :=
  (by decide +kernel : ∀ t : Fin grid0.N, _)

/-! ## Each input block read off its array -/

/-- The left column half's block at point t, at (row, column) y, is the activations at row 1024·t + row and the same column. -/
theorem iblk0_apply (c : Dev nD) (t : Fin cfg0.N) (y : S1024x1024.Idx) (k : S8192x2048.Idx)
    (hk0 : (k 0).val = 1024 * t.val + (y 0).val) (hk1 : (k 1).val = (y 1).val) :
    (iblk m c 0 t : Vec Ideal S1024x1024 .f32) y = (V m c main_arg0 : S8192x2048.Idx → EReal) k := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 1024 + 1 * (y 0).val = (k 0).val; rw [e0, hk0]; omega
  | ⟨1, _⟩ => show win0_0.index t (1 : Fin 2) * 1024 + 1 * (y 1).val = (k 1).val; rw [e1, hk1]; omega

/-- The right column half's block at point t, at (row, column) y, is the activations at row 1024·t + row and column 1024 + column. -/
theorem iblk1_apply (c : Dev nD) (t : Fin cfg0.N) (y : S1024x1024.Idx) (k : S8192x2048.Idx)
    (hk0 : (k 0).val = 1024 * t.val + (y 0).val) (hk1 : (k 1).val = 1024 + (y 1).val) :
    (iblk m c 1 t : Vec Ideal S1024x1024 .f32) y = (V m c main_arg0 : S8192x2048.Idx → EReal) k := by
  obtain ⟨-, -, e0, e1, -⟩ := idx_facts t
  unfold iblk
  rw [View.read_apply]
  show V m c main_arg0 _ = V m c main_arg0 _
  congr 1
  funext a
  apply Fin.ext
  match a with
  | ⟨0, _⟩ => show win0_1.index t (0 : Fin 2) * 1024 + 1 * (y 0).val = (k 0).val; rw [e0, hk0]; omega
  | ⟨1, _⟩ => show win0_1.index t (1 : Fin 2) * 1024 + 1 * (y 1).val = (k 1).val; rw [e1, hk1]; omega

/-- The upper row half's block of the first weights, at every point, at y, is the first weights at the same row and column. -/
theorem iblk2_apply (c : Dev nD) (t : Fin cfg0.N) (y : S1024x64.Idx) (k : S2048x64.Idx)
    (hk0 : (k 0).val = (y 0).val) (hk1 : (k 1).val = (y 1).val) :
    (iblk m c 2 t : Vec Ideal S1024x64 .f32) y = (V m c main_arg1 : S2048x64.Idx → EReal) k := by
  obtain ⟨-, -, -, -, e0, e1, -⟩ := idx_facts t
  unfold iblk
  rw [View.read_apply]
  show V m c main_arg1 _ = V m c main_arg1 _
  congr 1
  funext a
  apply Fin.ext
  match a with
  | ⟨0, _⟩ => show win0_2.index t (0 : Fin 2) * 1024 + 1 * (y 0).val = (k 0).val; rw [e0, hk0]; omega
  | ⟨1, _⟩ => show win0_2.index t (1 : Fin 2) * 64 + 1 * (y 1).val = (k 1).val; rw [e1, hk1]; omega

/-- The lower row half's block of the first weights, at every point, at y, is the first weights at row 1024 + row and the same column. -/
theorem iblk3_apply (c : Dev nD) (t : Fin cfg0.N) (y : S1024x64.Idx) (k : S2048x64.Idx)
    (hk0 : (k 0).val = 1024 + (y 0).val) (hk1 : (k 1).val = (y 1).val) :
    (iblk m c 3 t : Vec Ideal S1024x64 .f32) y = (V m c main_arg1 : S2048x64.Idx → EReal) k := by
  obtain ⟨-, -, -, -, -, -, e0, e1, -⟩ := idx_facts t
  unfold iblk
  rw [View.read_apply]
  show V m c main_arg1 _ = V m c main_arg1 _
  congr 1
  funext a
  apply Fin.ext
  match a with
  | ⟨0, _⟩ => show win0_3.index t (0 : Fin 2) * 1024 + 1 * (y 0).val = (k 0).val; rw [e0, hk0]; omega
  | ⟨1, _⟩ => show win0_3.index t (1 : Fin 2) * 64 + 1 * (y 1).val = (k 1).val; rw [e1, hk1]; omega

/-- The first bias row's block, at every point, is the whole 1 × 64 row. -/
theorem iblk4_eq (c : Dev nD) (t : Fin cfg0.N) :
    (iblk m c 4 t : Vec Ideal S1x64 .f32) = (V m c main_v0 : S1x64.Idx → EReal) := by
  obtain ⟨-, -, -, -, -, -, -, -, e0, e1, -⟩ := idx_facts t
  funext y
  unfold iblk
  rw [View.read_apply]
  show V m c main_v0 _ = V m c main_v0 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega

/-- The second weights' block, at every point, is the whole 64 × 64 matrix. -/
theorem iblk5_eq (c : Dev nD) (t : Fin cfg0.N) :
    (iblk m c 5 t : Vec Ideal S64x64 .f32) = (V m c main_arg3 : S64x64.Idx → EReal) := by
  obtain ⟨-, -, -, -, -, -, -, -, -, -, e0, e1, -⟩ := idx_facts t
  funext y
  unfold iblk
  rw [View.read_apply]
  show V m c main_arg3 _ = V m c main_arg3 _
  congr 1
  funext a
  apply Fin.ext
  match a with
  | ⟨0, _⟩ => show win0_5.index t (0 : Fin 2) * 64 + 1 * (y 0).val = (y 0).val; rw [e0]; omega
  | ⟨1, _⟩ => show win0_5.index t (1 : Fin 2) * 64 + 1 * (y 1).val = (y 1).val; rw [e1]; omega

/-- The second bias row's block, at every point, is the whole 1 × 64 row. -/
theorem iblk6_eq (c : Dev nD) (t : Fin cfg0.N) :
    (iblk m c 6 t : Vec Ideal S1x64 .f32) = (V m c main_v1 : S1x64.Idx → EReal) := by
  obtain ⟨-, -, -, -, -, -, -, -, -, -, -, -, e0, e1, -⟩ := idx_facts t
  funext y
  unfold iblk
  rw [View.read_apply]
  show V m c main_v1 _ = V m c main_v1 _
  congr 1
  funext a
  apply Fin.ext
  match a with
  | ⟨0, _⟩ => show win0_6.index t (0 : Fin 2) * 1 + 1 * (y 0).val = (y 0).val; rw [e0]; omega
  | ⟨1, _⟩ => show win0_6.index t (1 : Fin 2) * 64 + 1 * (y 1).val = (y 1).val; rw [e1]; omega

/-! ## The arrays as the call finds them -/

/-- The two reshapes write neither the activations, -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))

/-- nor the first weights, -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))

/-- nor the second weights: the call finds each as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))

/-- The first bias row the call finds is the first bias vector laid as a 1 × 64 array. -/
theorem V_main_v0 (c : Dev nD) : (V m c main_v0 : S1x64.Idx → EReal)
    = shapeCast S1x64 (m ((c : Thread nD τ).loc main_arg2) : S64.Idx → EReal) shapeCasts_S64_S1x64 := by
  dsimp only [V, hostOps0]
  after_results
  rfl

/-- The second bias row the call finds is the second bias vector laid as a 1 × 64 array. -/
theorem V_main_v1 (c : Dev nD) : (V m c main_v1 : S1x64.Idx → EReal)
    = shapeCast S1x64 (m ((c : Thread nD τ).loc main_arg4) : S64.Idx → EReal) shapeCasts_S64_S1x64 := by
  dsimp only [V, hostOps0]
  after_results
  rfl

/-- Entry (0, j) of the first bias row is entry j of the first bias vector. -/
theorem V_main_v0_apply (c : Dev nD) (j : Fin 64) :
    (V m c main_v0 : S1x64.Idx → EReal) (ix2 (0 : Fin 1) j) = (m ((c : Thread nD τ).loc main_arg2) : S64.Idx → EReal) (ix1 j) := by
  rw [V_main_v0]
  refine shapeCast_apply _ _ _ (ix1 j) ?_
  rw [Shape.rowMajor_val_one, Shape.rowMajor_val_two]
  show j.val = 0 * 64 + j.val
  omega

/-- Entry (0, j) of the second bias row is entry j of the second bias vector. -/
theorem V_main_v1_apply (c : Dev nD) (j : Fin 64) :
    (V m c main_v1 : S1x64.Idx → EReal) (ix2 (0 : Fin 1) j) = (m ((c : Thread nD τ).loc main_arg4) : S64.Idx → EReal) (ix1 j) := by
  rw [V_main_v1]
  refine shapeCast_apply _ _ _ (ix1 j) ?_
  rw [Shape.rowMajor_val_one, Shape.rowMajor_val_two]
  show j.val = 0 * 64 + j.val
  omega

/-! ## One grid point's block -/

/-- What the body stores, at row p and entry e of its block, is the routed softmax at row r and entry e — whenever
    the seven blocks are the half rows r of the activations, the two row halves of the first weights, the two bias
    rows, and the second weights. -/
theorem out7_eq_G (x0 x1 : Vec Ideal S1024x1024 .f32) (x2 x3 : Vec Ideal S1024x64 .f32) (x4 : Vec Ideal S1x64 .f32)
    (x5 : Vec Ideal S64x64 .f32) (x6 : Vec Ideal S1x64 .f32)
    (x : S8192x2048.Idx → EReal) (W1 : S2048x64.Idx → EReal) (b1 b2 : S64.Idx → EReal)
    (p : Fin 1024) (r : Fin 8192) (e : Fin 64)
    (hxa : ∀ k : Fin 1024, x0 (ix2 p k) = x (ix2 r (⟨k.val, by omega⟩ : Fin 2048)))
    (hxb : ∀ k : Fin 1024, x1 (ix2 p k) = x (ix2 r (⟨1024 + k.val, by omega⟩ : Fin 2048)))
    (hwa : ∀ (k : Fin 1024) (j : Fin 64), x2 (ix2 k j) = W1 (ix2 (⟨k.val, by omega⟩ : Fin 2048) j))
    (hwb : ∀ (k : Fin 1024) (j : Fin 64), x3 (ix2 k j) = W1 (ix2 (⟨1024 + k.val, by omega⟩ : Fin 2048) j))
    (hb1 : ∀ j : Fin 64, x4 (ix2 (0 : Fin 1) j) = b1 (ix1 j))
    (hb2 : ∀ j : Fin 64, x6 (ix2 (0 : Fin 1) j) = b2 (ix1 j)) :
    out7 (F := Ideal) x0 x1 x2 x3 x4 x5 x6 (ix2 p e) = Cert.Spec.G x W1 b1 x5 b2 r e := by
  unfold out7
  rw [View.canon_unit_zero hz]
  simp only [View.ld_unit_zero (S := S1024x1024) hz, View.ld_unit_zero (S := S1024x64) hz,
    View.ld_unit_zero (S := S1x64) hz, View.ld_unit_zero (S := S64x64) hz]
  rw [Cert.KernelIdeal.Pay.pay_eq_Gblk]
  exact Cert.Spec.Gblk_eq_G x W1 b1 x5 b2 x0 x1 x2 x3 x4 x6 p r e hxa hxb hwa hwb hb1 hb2

/-- What point t writes back is block t of the routed softmax of the five argument arrays: rows 1024·t .. 1024·t + 1023. -/
theorem flushed7_eq (c : Dev nD) (t : Fin cfg0.N) :
    (dats (F := Ideal) m 0 c).flushed 7 t = ((cfg0.win 7).blk t).view.read (Elt Ideal)
      (Cert.Spec.Garr (m ((c : Thread nD τ).loc main_arg0)) (m ((c : Thread nD τ).loc main_arg1))
          (m ((c : Thread nD τ).loc main_arg2)) (m ((c : Thread nD τ).loc main_arg3)) (m ((c : Thread nD τ).loc main_arg4))) := by
  have ht : t.val < 8 := lt_of_lt_of_eq t.isLt N_0
  obtain ⟨-, -, -, -, -, -, -, -, -, -, -, -, -, -, e0, e1⟩ := idx_facts t
  show (cfg0.win 7).cut (grid0.coords t) ((dats m 0 c).after 7 t) = _
  rw [after7]
  refine funext fun (y : S1024x64.Idx) => ?_
  obtain ⟨p, e, rfl⟩ : ∃ (p : Fin 1024) (e : Fin 64), y = ix2 p e := ⟨y 0, y 1, eq_ix2 y⟩
  rw [View.read_apply]
  show out7 (F := Ideal) (iblk m c 0 t) (iblk m c 1 t) (iblk m c 2 t) (iblk m c 3 t) (iblk m c 4 t) (iblk m c 5 t) (iblk m c 6 t) (ix2 p e) = _
  refine (out7_eq_G (iblk m c 0 t) (iblk m c 1 t) (iblk m c 2 t) (iblk m c 3 t) (iblk m c 4 t) (iblk m c 5 t) (iblk m c 6 t)
    (m ((c : Thread nD τ).loc main_arg0)) (m ((c : Thread nD τ).loc main_arg1))
    (m ((c : Thread nD τ).loc main_arg2)) (m ((c : Thread nD τ).loc main_arg4))
    p ⟨1024 * t.val + p.val, by omega⟩ e ?_ ?_ ?_ ?_ ?_ ?_).trans ?_
  · intro k
    rw [← V_main_arg0 m c]
    exact iblk0_apply m c t (ix2 p k) _ rfl rfl
  · intro k
    rw [← V_main_arg0 m c]
    exact iblk1_apply m c t (ix2 p k) _ rfl rfl
  · intro k j
    rw [← V_main_arg1 m c]
    exact iblk2_apply m c t (ix2 k j) _ rfl rfl
  · intro k j
    rw [← V_main_arg1 m c]
    exact iblk3_apply m c t (ix2 k j) _ rfl rfl
  · intro j
    rw [iblk4_eq]
    exact V_main_v0_apply m c j
  · intro j
    rw [iblk6_eq]
    exact V_main_v1_apply m c j
  · rw [iblk5_eq, V_main_arg3]
    unfold Cert.Spec.Garr
    have h0 : (((cfg0.win 7).blk t).view.emb (ix2 p e)) 0 = (⟨1024 * t.val + p.val, by omega⟩ : Fin 8192) := by
      apply Fin.ext
      show win0_7.index t (0 : Fin 2) * 1024 + 1 * p.val = 1024 * t.val + p.val
      rw [e0]; omega
    have h1 : (((cfg0.win 7).blk t).view.emb (ix2 p e)) 1 = e := by
      apply Fin.ext
      show win0_7.index t (1 : Fin 2) * 64 + 1 * e.val = e.val
      rw [e1]; omega
    show _ = Cert.Spec.G _ _ _ _ _ ((((cfg0.win 7).blk t).view.emb (ix2 p e)) 0) ((((cfg0.win 7).blk t).view.emb (ix2 p e)) 1)
    rw [h0, h1]

/-! ## The blocks tile the result -/

/-- An index of the result is in point t's block iff each coordinate is in the block's range on its axis. -/
theorem mem_blk7 (t : Fin cfg0.N) (i : S8192x64.Idx) :
    i ∈ ((cfg0.win 7).blk t).view.set ↔ ∀ a : Fin 2, win0_7.index t a * S1024x64.size a ≤ (i a).val
      ∧ (i a).val < win0_7.index t a * S1024x64.size a + S1024x64.size a := by
  show i ∈ ((View.whole main_v2).slice (win0_7.rect t)).set ↔ _
  rw [View.set_slice_whole, Rect.mem_set_unit]
  exact Iff.rfl

/-- Every index of the result lies in the block of the point numbered row / 1024, and that point writes its block back. -/
theorem cover7 (i : S8192x64.Idx) :
    ∃ t : Fin cfg0.N, (cfg0.win 7).flush t = true ∧ i ∈ ((cfg0.win 7).blk t).view.set := by
  have hi0 : (i 0).val < 8192 := (i 0).isLt
  have hi1 : (i 1).val < 64 := (i 1).isLt
  obtain ⟨t, ht⟩ : ∃ t : Fin cfg0.N, t.val = (i 0).val / 1024 :=
    ⟨⟨(i 0).val / 1024, lt_of_lt_of_eq (by omega : (i 0).val / 1024 < 8) N_0.symm⟩, rfl⟩
  obtain ⟨-, -, -, -, -, -, -, -, -, -, -, -, -, -, e0, e1⟩ := idx_facts t
  refine ⟨t, flush0_7 t, ?_⟩
  rw [mem_blk7]
  intro a
  match a with
  | ⟨0, _⟩ =>
    show win0_7.index t (0 : Fin 2) * 1024 ≤ (i 0).val ∧ (i 0).val < win0_7.index t (0 : Fin 2) * 1024 + 1024
    rw [e0, ht]; omega
  | ⟨1, _⟩ =>
    show win0_7.index t (1 : Fin 2) * 64 ≤ (i 1).val ∧ (i 1).val < win0_7.index t (1 : Fin 2) * 64 + 64
    rw [e1]; omega

/-- The result array after the eight grid points is the routed softmax of the five argument arrays. -/
theorem final7 (c : Dev nD) :
    (dats (F := Ideal) m 0 c).arrAt 7 cfg0.N
      = Cert.Spec.Garr (m ((c : Thread nD τ).loc main_arg0)) (m ((c : Thread nD τ).loc main_arg1))
          (m ((c : Thread nD τ).loc main_arg2)) (m ((c : Thread nD τ).loc main_arg3)) (m ((c : Thread nD τ).loc main_arg4)) :=
  (dats (F := Ideal) m 0 c).arrAt_eq_of_cover 7 _ (fun t _ => flushed7_eq m c t) cover7

end Cert.KernelIdeal.RunValue

end
-- ==== Proof.RefIsG.lean ====
/-
  The reference's result, read one operation at a time, is the routed softmax of its five arguments.
-/
import proofs.«149150_g25202868093193_cont_8to1_1016_10_alg».proof.Proof.Gen.ReferenceIdeal.Run
import proofs.«149150_g25202868093193_cont_8to1_1016_10_alg».proof.Proof.Gen.ReferenceIdeal.Read
import proofs.«149150_g25202868093193_cont_8to1_1016_10_alg».proof.Proof.Spec
import Idealize.ShloMosaic.PureOps.Reduce
import Idealize.ShloMosaic.PureOps.Ideal.Laws
import Idealize.ShloMosaic.Lib.IdealHost

noncomputable section

namespace Cert.ReferenceIdeal.RefValue

open Idealize.ShloMosaic Idealize.ShloMosaic.ValueIdx Cert.ReferenceIdeal Cert.ReferenceIdeal.Gen Cert.ReferenceIdeal.Read

/-- Dividing an extended real by one leaves it unchanged. -/
theorem div_one' (x : EReal) : Ideal.div x 1 = x := by
  unfold Ideal.div
  rw [if_neg one_ne_zero, inv_one, mul_one]

/-- The f32 pattern of -∞ is the least extended real. -/
theorem ofBits_neg_inf_f32 : Ideal.ofBits .f32 0xFF800000#32 = ⊥ := by simp [Ideal.ofBits, Ideal.ieee]

variable (x0 : (⟨S8192x2048, .f32⟩ : BufTy).Contents (Elt Ideal)) (x1 : (⟨S2048x64, .f32⟩ : BufTy).Contents (Elt Ideal))
    (x2 : (⟨S64, .f32⟩ : BufTy).Contents (Elt Ideal)) (x3 : (⟨S64x64, .f32⟩ : BufTy).Contents (Elt Ideal))
    (x4 : (⟨S64, .f32⟩ : BufTy).Contents (Elt Ideal))

/-- The pre-activations at row r, entry j: the first product's sum plus the first bias. -/
theorem v3_at (r : Fin 8192) (j : Fin 64) :
    val_main_v3 (F := Ideal) x0 x1 x2 (ix2 r j) = (∑ k : Fin 2048, x0 (ix2 r k) * x1 (ix2 k j)) + x2 (ix1 j) := by
  rw [val_main_v3_apply, val_main_v0_apply, val_main_v2_apply, val_main_v1_apply]
  show (∑ k : Fin 2048, _) + _ = _
  refine congrArg₂ (· + ·) (Finset.sum_congr rfl fun k _ => congrArg₂ (· * ·) (congrArg x0 ?_) (congrArg x1 ?_)) (congrArg x2 ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-- The hidden vector at row r, entry j: the rectified pre-activation. -/
theorem v5_at (r : Fin 8192) (j : Fin 64) :
    val_main_v5 (F := Ideal) x0 x1 x2 (ix2 r j)
      = max ((∑ k : Fin 2048, x0 (ix2 r k) * x1 (ix2 k j)) + x2 (ix1 j)) (Ideal.ofBits .f32 0x00000000#32) := by
  rw [val_main_v5_apply, v3_at, val_main_v4_apply, val_main_cst_apply]
  rfl

/-- The logits at row r, entry e: the hidden vector times the second weights plus the second bias (the division by the
    constant one changes nothing). -/
theorem v11_at (r : Fin 8192) (e : Fin 64) :
    val_main_v11 (F := Ideal) x0 x1 x2 x3 x4 (ix2 r e)
      = Cert.Spec.logits (fun j => max ((∑ k : Fin 2048, x0 (ix2 r k) * x1 (ix2 k j)) + x2 (ix1 j)) (Ideal.ofBits .f32 0x00000000#32))
          x3 (fun e' => x4 (ix1 e')) e := by
  rw [val_main_v11_apply, val_main_v10_apply, val_main_cst_0_apply, val_main_v9_apply, val_main_v6_apply,
    val_main_v8_apply, val_main_v7_apply]
  show Ideal.div ((∑ k : Fin 64, _) + _) (Ideal.ofBits .f32 0x3F800000#32) = _
  rw [Ideal.ofBits_one_f32, div_one']
  unfold Cert.Spec.logits
  refine congrArg₂ (· + ·) (Finset.sum_congr rfl fun k _ => congrArg₂ (· * ·) ?_ (congrArg x3 ?_)) (congrArg x4 ?_)
  · refine (congrArg (val_main_v5 (F := Ideal) x0 x1 x2) ?_).trans (v5_at x0 x1 x2 r k)
    exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

set_option maxRecDepth 16384 in
/-- Removing the second axis of the 8192 × 64 shape leaves the 8192 rows. -/
theorem reduces_rows : S8192x64.Reduces [1] S8192 := by decide

/-- A maximum-reduction of an 8192 × 64 array over its second axis from the -∞ constant, read at row r: the fold of
    max from -∞ over the row's 64 entries. -/
theorem rowmax_read (y : S8192x64.Idx → EReal) (r : Fin 8192) :
    Host.reduce (FloatOps.maximumf (F := Ideal) (φ := .f32)) y (val_main_cst_1 (F := Ideal)) reducesTo_S8192x64_S8192_d1 h_S_ (ix1 r)
      = (Finset.univ : Finset (Fin 64)).fold max (Ideal.ofBits .f32 0xFF800000#32) (fun e : Fin 64 => y (ix2 r e)) := by
  have h := Host.reduce_eq_fold_single (FloatOps.maximumf (F := Ideal) (φ := .f32)) y (val_main_cst_1 (F := Ideal))
    reducesTo_S8192x64_S8192_d1 reduces_rows h_S_ (ix1 r)
  refine h.trans ?_
  exact congrArg (fun f => Finset.fold max (Ideal.ofBits .f32 0xFF800000#32) f (Finset.univ : Finset (Fin 64)))
    (funext fun e => congrArg y (funext fun a => Fin.ext (by match a with | ⟨0, _⟩ => rfl | ⟨1, _⟩ => rfl)))

/-- The row maximum at row r: the fold of max from -∞ over the row's 64 logits. -/
theorem v12_at (r : Fin 8192) :
    val_main_v12 (F := Ideal) x0 x1 x2 x3 x4 (ix1 r)
      = Cert.Spec.rowMax (fun e : Fin 64 => val_main_v11 (F := Ideal) x0 x1 x2 x3 x4 (ix2 r e)) :=
  rowmax_read (val_main_v11 (F := Ideal) x0 x1 x2 x3 x4) r

/-- The maximum of -∞ and the row maximum is the row maximum. -/
theorem v14_at (r : Fin 8192) :
    val_main_v14 (F := Ideal) x0 x1 x2 x3 x4 (ix1 r)
      = Cert.Spec.rowMax (fun e : Fin 64 => val_main_v11 (F := Ideal) x0 x1 x2 x3 x4 (ix2 r e)) := by
  rw [val_main_v14_apply, val_main_v13_apply, val_main_cst_2_apply, v12_at]
  show max (Ideal.ofBits .f32 0xFF800000#32) _ = _
  rw [ofBits_neg_inf_f32]
  exact max_eq_right bot_le

/-- The exponential at row r, entry e: the exponential of the logit less the row maximum. -/
theorem v18_at (r : Fin 8192) (e : Fin 64) :
    val_main_v18 (F := Ideal) x0 x1 x2 x3 x4 (ix2 r e)
      = Ideal.exp (val_main_v11 (F := Ideal) x0 x1 x2 x3 x4 (ix2 r e)
          - Cert.Spec.rowMax (fun e' : Fin 64 => val_main_v11 (F := Ideal) x0 x1 x2 x3 x4 (ix2 r e'))) := by
  rw [val_main_v18_apply, val_main_v17_apply, val_main_v16_apply, val_main_v15_apply]
  show Ideal.exp (_ - _) = _
  refine congrArg (fun m => Ideal.exp (val_main_v11 (F := Ideal) x0 x1 x2 x3 x4 (ix2 r e) - m)) ?_
  refine (congrArg (val_main_v14 (F := Ideal) x0 x1 x2 x3 x4) ?_).trans (v14_at x0 x1 x2 x3 x4 r)
  exact funext fun a => Fin.ext (by match a with | ⟨0, _⟩ => rfl)

/-- The normalizer at row r: the sum of the row's 64 exponentials (the sum starts from zero). -/
theorem v19_at (r : Fin 8192) :
    val_main_v19 (F := Ideal) x0 x1 x2 x3 x4 (ix1 r)
      = ∑ e : Fin 64, val_main_v18 (F := Ideal) x0 x1 x2 x3 x4 (ix2 r e) := by
  rw [val_main_v19_apply, val_main_cst_3_apply]
  show Ideal.ofBits .f32 0x00000000#32 + _ = _
  rw [Ideal.ofBits_zero_f32, zero_add]
  refine Finset.sum_congr rfl fun e _ => congrArg (val_main_v18 (F := Ideal) x0 x1 x2 x3 x4) ?_
  exact funext fun a => Fin.ext (by match a with | ⟨0, _⟩ => rfl | ⟨1, _⟩ => rfl)

/-- The result at row r, entry e: the stable softmax of the row's logits. -/
theorem v22_at (r : Fin 8192) (e : Fin 64) :
    val_main_v22 (F := Ideal) x0 x1 x2 x3 x4 (ix2 r e)
      = Cert.Spec.softmaxRow (fun e' : Fin 64 => val_main_v11 (F := Ideal) x0 x1 x2 x3 x4 (ix2 r e')) e := by
  rw [val_main_v22_apply, val_main_v21_apply, val_main_v20_apply]
  show Ideal.div _ _ = _
  unfold Cert.Spec.softmaxRow
  refine congrArg₂ Ideal.div (v18_at x0 x1 x2 x3 x4 r e) ?_
  refine (congrArg (val_main_v19 (F := Ideal) x0 x1 x2 x3 x4) ?_).trans ((v19_at x0 x1 x2 x3 x4 r).trans ?_)
  · exact funext fun a => Fin.ext (by match a with | ⟨0, _⟩ => rfl)
  · exact Finset.sum_congr rfl fun e' _ => v18_at x0 x1 x2 x3 x4 r e'

/-- The reference's result is the routed softmax of its five arguments, at every row and entry. -/
theorem ref_is_G (x0 : (⟨S8192x2048, .f32⟩ : BufTy).Contents (Elt Ideal)) (x1 : (⟨S2048x64, .f32⟩ : BufTy).Contents (Elt Ideal))
    (x2 : (⟨S64, .f32⟩ : BufTy).Contents (Elt Ideal)) (x3 : (⟨S64x64, .f32⟩ : BufTy).Contents (Elt Ideal))
    (x4 : (⟨S64, .f32⟩ : BufTy).Contents (Elt Ideal)) :
    val_main_v22 (F := Ideal) x0 x1 x2 x3 x4 = Cert.Spec.Garr x0 x1 x2 x3 x4 := by
  funext i
  obtain ⟨r, e, rfl⟩ : ∃ (r : Fin 8192) (e : Fin 64), i = ix2 r e := ⟨i 0, i 1, eq_ix2 i⟩
  rw [v22_at]
  show _ = Cert.Spec.G x0 x1 x2 x3 x4 r e
  unfold Cert.Spec.G Cert.Spec.head
  exact congrArg (fun l => Cert.Spec.softmaxRow l e) (funext fun e' => v11_at x0 x1 x2 x3 x4 r e')

end Cert.ReferenceIdeal.RefValue

end
-- ==== Proof.lean ====
/-
  The certificate of the routed-softmax kernel against its reference: softmax(relu(x·W1 + b1)·W2 + b2), row by row.

  The kernel is one pipelined call over eight blocks of 1024 rows. At each block it takes the first product as two
  half-length products (the left column half of x with the upper row half of W1, the right with the lower), adds them,
  adds the bias, rectifies, multiplies by W2, adds the second bias and takes the stable softmax of each row. The
  reference does the same with ONE product over all 2048 columns, divides the logits by the temperature 1, and guards
  the row maximum by a maximum with -∞. On the extended reals a sum over 2048 terms is the sum of its two halves
  (addition is commutative and associative: no finiteness is needed), a quotient by 1 is the dividend, and -∞ is below
  every row maximum: the two programs compute one function of the five arguments, `Cert.Spec.Garr`.

  Frames: the kernel's programs run through the pipelined call's launch with two windows on x and two on W1 holding
  half shares; the reference is straight-line host operations. The idealization rewrote nothing, so `preserves` is
  trivial.
-/
import proofs.«149150_g25202868093193_cont_8to1_1016_10_alg».proof.Defs
import proofs.«149150_g25202868093193_cont_8to1_1016_10_alg».proof.Proof.Gen.Kernel
import proofs.«149150_g25202868093193_cont_8to1_1016_10_alg».proof.Proof.Gen.KernelIdeal
import proofs.«149150_g25202868093193_cont_8to1_1016_10_alg».proof.Proof.Gen.ReferenceIdeal
import proofs.«149150_g25202868093193_cont_8to1_1016_10_alg».proof.Proof.Gen.Pre_finite_inputs
import proofs.«149150_g25202868093193_cont_8to1_1016_10_alg».proof.Proof.Gen.ReferenceIdeal.Run
import proofs.«149150_g25202868093193_cont_8to1_1016_10_alg».proof.Proof.Gen.ReferenceIdeal.Read
import proofs.«149150_g25202868093193_cont_8to1_1016_10_alg».proof.Proof.BLaunch
import proofs.«149150_g25202868093193_cont_8to1_1016_10_alg».proof.Proof.KLaunch
import proofs.«149150_g25202868093193_cont_8to1_1016_10_alg».proof.Proof.KValue
import proofs.«149150_g25202868093193_cont_8to1_1016_10_alg».proof.Proof.RefIsG

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Run.frame m ρ

/-- So does the idealized kernel. -/
theorem frame_ki : Cert.frame_KernelIdeal := fun m ρ _ => Cert.KernelIdeal.Run.frame m ρ

/-- The reference is host operations only: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result at the routed softmax of the (agreeing) arguments. -/
theorem algebraic : Cert.algebraic_KernelIdeal_ReferenceIdeal := by
  intro m ρ m' ρ' _ hagree
  refine ⟨fun c => Cert.Spec.Garr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.RunValue.final7 m c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v22_eq (F := Ideal) _ _ _ _ _).trans
      ((Cert.ReferenceIdeal.RefValue.ref_is_G _ _ _ _ _).trans ?_)
    rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
